-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x800000 : Shape := ⟨2, ![2, 800000]⟩
abbrev S1433x64 : Shape := ⟨2, ![1433, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x64 : S_.BroadcastsInDim S1433x64 (![] : Fin 0 → Fin S1433x64.rank)
  reducesTo_S1433x64_S_d0_1 : S1433x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S1433x64 1) : IVec S_ 1 :=
  let main_c_5 : IVec S_ 1 := constantI S_ 1 1#1
  let main_v17 : IVec S_ 1 := (fun x v => Host.reduce IntOp.andi x v reducesTo_S1433x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S50000x1433 .f32) (main_arg1 : IVec S2x800000 32) (main_arg2 : FVec F S1433x64 .f32) (main_arg3 : FVec F S64 .f32) (main_arg4 : FVec F S1433x64 .f32) (main_arg5 : FVec F S64x32 .f32) (main_arg6 : FVec F S32 .f32) (main_arg7 : FVec F S64x32 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x64 .f32 := Host.absf main_arg2
  let main_cst_0 : FVec F S_ .f32 := constant S_ .f32 0x7F800000#32
  let main_v5 : FVec F S1433x64 .f32 := broadcastInDim S1433x64 ![] bcast_S_S1433x64 main_cst_0
  let main_v6 : IVec S1433x64 1 := cmpf .olt main_v4 main_v5
  let main_c_1 : IVec S_ 1 := constantI S_ 1 1#1
  let main_v7 : IVec S_ 1 := (fun x v => Host.reduce IntOp.andi x v reducesTo_S1433x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1433x64 .f32 := Host.absf main_arg4
  let main_cst_4 : FVec F S_ .f32 := constant S_ .f32 0x7F800000#32
  let main_v15 : FVec F S1433x64 .f32 := broadcastInDim S1433x64 ![] bcast_S_S1433x64 main_cst_4
  let main_v16 : IVec S1433x64 1 := cmpf .olt main_v14 main_v15
  fn_part1 (F := F) main_arg5 main_arg6 main_arg7 main_v13 main_v16
-- ==== Kernel.lean ====
abbrev S50000x1433 : Shape := ⟨2, ![50000, 1433]⟩
abbrev S2x800000 : Shape := ⟨2, ![2, 800000]⟩
abbrev S1433x64 : Shape := ⟨2, ![1433, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x64 : Shape := ⟨2, ![50000, 64]⟩
abbrev S1000x1433 : Shape := ⟨2, ![1000, 1433]⟩
abbrev S1000x64 : Shape := ⟨2, ![1000, 64]⟩
abbrev S800000x64 : Shape := ⟨2, ![800000, 64]⟩
abbrev S50000x1 : Shape := ⟨2, ![50000, 1]⟩
abbrev S1x64 : Shape := ⟨2, ![1, 64]⟩
abbrev S50000x32 : Shape := ⟨2, ![50000, 32]⟩
abbrev S1000x32 : Shape := ⟨2, ![1000, 32]⟩
abbrev S800000x32 : Shape := ⟨2, ![800000, 32]⟩
abbrev S1x32 : Shape := ⟨2, ![1, 32]⟩
abbrev S1000 : Shape := ⟨1, ![1000]⟩
abbrev S1000x1 : Shape := ⟨2, ![1000, 1]⟩

abbrev nBuf : Space → Nat
  | .hbm => 75
  | .vmem => 26
  | .smem => 0
  | _ => 0

abbrev bufTy : (tb : Table) → Fin (tcTables nBuf tb) → BufTy
  | .hbm, ⟨0, _⟩ => ⟨S50000x1433, .f32⟩
  | .hbm, ⟨1, _⟩ => ⟨S2x800000, .i32⟩
  | .hbm, ⟨2, _⟩ => ⟨S1433x64, .f32⟩
  | .hbm, ⟨3, _⟩ => ⟨S64, .f32⟩
  | .hbm, ⟨4, _⟩ => ⟨S1433x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000x64, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x1, .i1⟩
  | .hbm, ⟨40, _⟩ => ⟨S50000x1, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S_, .f32⟩
  | .hbm, ⟨45, _⟩ => ⟨S50000x64, .i1⟩
  | .hbm, ⟨46, _⟩ => ⟨S50000x64, .f32⟩
  | .hbm, ⟨47, _⟩ => ⟨S50000x64, .f32⟩
  | .hbm, ⟨48, _⟩ => ⟨S1x64, .f32⟩
  | .hbm, ⟨49, _⟩ => ⟨S50000x32, .f32⟩
  | .hbm, ⟨50, _⟩ => ⟨S50000x32, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x32, .f32⟩
  | .hbm, ⟨60, _⟩ => ⟨S_, .f32⟩
  | .hbm, ⟨61, _⟩ => ⟨S50000x32, .f32⟩
  | .hbm, ⟨62, _⟩ => ⟨S800000x1, .i32⟩
  | .hbm, ⟨63, _⟩ => ⟨S50000x32, .f32⟩
  | .hbm, ⟨64, _⟩ => ⟨S50000x1, .i1⟩
  | .hbm, ⟨65, _⟩ => ⟨S50000x1, .f32⟩
  | .hbm, ⟨66, _⟩ => ⟨S50000x32, .f32⟩
  | .hbm, ⟨67, _⟩ => ⟨S50000x32, .f32⟩
  | .hbm, ⟨68, _⟩ => ⟨S_, .f32⟩
  | .hbm, ⟨69, _⟩ => ⟨S_, .f32⟩
  | .hbm, ⟨70, _⟩ => ⟨S50000x32, .i1⟩
  | .hbm, ⟨71, _⟩ => ⟨S50000x32, .f32⟩
  | .hbm, ⟨72, _⟩ => ⟨S50000x32, .f32⟩
  | .hbm, ⟨73, _⟩ => ⟨S1x32, .f32⟩
  | .hbm, ⟨74, _⟩ => ⟨S50000x32, .f32⟩
  | .local _ .vmem, ⟨0, _⟩ => ⟨S1000x1433, .f32⟩
  | .local _ .vmem, ⟨1, _⟩ => ⟨S1000x1433, .f32⟩
  | .local _ .vmem, ⟨2, _⟩ => ⟨S1433x64, .f32⟩
  | .local _ .vmem, ⟨3, _⟩ => ⟨S1433x64, .f32⟩
  | .local _ .vmem, ⟨4, _⟩ => ⟨S1000x64, .f32⟩
  | .local _ .vmem, ⟨5, _⟩ => ⟨S1000x64, .f32⟩
  | .local _ .vmem, ⟨6, _⟩ => ⟨S1000x64, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1x64, .f32⟩
  | .local _ .vmem, ⟨13, _⟩ => ⟨S64x32, .f32⟩
  | .local _ .vmem, ⟨14, _⟩ => ⟨S64x32, .f32⟩
  | .local _ .vmem, ⟨15, _⟩ => ⟨S1000x32, .f32⟩
  | .local _ .vmem, ⟨16, _⟩ => ⟨S1000x32, .f32⟩
  | .local _ .vmem, ⟨17, _⟩ => ⟨S1000x32, .f32⟩
  | .local _ .vmem, ⟨18, _⟩ => ⟨S1000x32, .f32⟩
  | .local _ .vmem, ⟨19, _⟩ => ⟨S1000x32, .f32⟩
  | .local _ .vmem, ⟨20, _⟩ => ⟨S1000x32, .f32⟩
  | .local _ .vmem, ⟨21, _⟩ => ⟨S1000x32, .f32⟩
  | .local _ .vmem, ⟨22, _⟩ => ⟨S1000x32, .f32⟩
  | .local _ .vmem, ⟨23, _⟩ => ⟨S1x32, .f32⟩
  | .local _ .vmem, ⟨24, _⟩ => ⟨S1000x32, .f32⟩
  | .local _ .vmem, ⟨25, _⟩ => ⟨S1000x32, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v27 : Ref sig .tc := ⟨.hbm, 47, rfl⟩
abbrev main_v28 : Ref sig .tc := ⟨.hbm, 48, rfl⟩
abbrev main_v29_0 : Ref sig .tc := ⟨.hbm, 49, rfl⟩
abbrev main_v29_1 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1433x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x64_S1433x64_0_0 : ∀ a, (![0, 0] : Fin 2 → Nat) a + S1433x64.size a ≤ S1433x64.size a
  h_S1433x64 : 0 < S1433x64.numel
  inb_S1000x64_S1000x64_0_0 : ∀ a, (![0, 0] : Fin 2 → Nat) a + S1000x64.size a ≤ S1000x64.size a
  h_S1000x64 : 0 < S1000x64.numel
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  shapeCasts_S1000x64_S1000x64 : S1000x64.ShapeCasts S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x32_S64x32_0_0 : ∀ a, (![0, 0] : Fin 2 → Nat) a + S64x32.size a ≤ S64x32.size a
  h_S64x32 : 0 < S64x32.numel
  inb_S1000x32_S1000x32_0_0 : ∀ a, (![0, 0] : Fin 2 → Nat) a + S1000x32.size a ≤ S1000x32.size a
  h_S1000x32 : 0 < S1000x32.numel
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  shapeCasts_S32_S1x32 : S32.ShapeCasts S1x32
  shapeCasts_S1000x32_S1000x32 : S1000x32.ShapeCasts S1000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  reduces_S1000x32_S1000 : S1000x32.Reduces [1] S1000
  shapeCasts_S1000_S1000x1 : S1000.ShapeCasts S1000x1
  broadcasts_S1000x1_S1000x32 : S1000x1.Broadcasts S1000x32
  scatter_S50000_S800000x1_S800000_n_0_0_1_wf : ScatterDims.WF S50000 S800000x1 S800000 [] [0] [0] 1
  dot_S1000x1433_S1433x64_S1000x64_1_0_0_1_n_n_wf : DotDims.WF S1000x1433 S1433x64 S1000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S1000x64_S64x32_S1000x32_1_0_0_1_n_n_wf : DotDims.WF S1000x64 S64x32 S1000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S50000x1433.size a
  hwx0_0 : ∀ i : grid0.Coords, EltTy.bits .f32 = 32 ∨ (Rect.block (s := S50000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x64.size a ≤ S1433x64.size a
  hwx0_1 : ∀ i : grid0.Coords, EltTy.bits .f32 = 32 ∨ (Rect.block (s := S1433x64) S1433x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1433x64.size a ≤ S1433x64.size a
  hwx0_2 : ∀ i : grid0.Coords, EltTy.bits .f32 = 32 ∨ (Rect.block (s := S1433x64) S1433x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S50000x64.size a
  hwx0_3 : ∀ i : grid0.Coords, EltTy.bits .f32 = 32 ∨ (Rect.block (s := S50000x64) S1000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x64.size a ≤ S50000x64.size a
  hwx0_4 : ∀ i : grid0.Coords, EltTy.bits .f32 = 32 ∨ (Rect.block (s := S50000x64) S1000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x32.size a ≤ S50000x32.size a
  hwx1_5 : ∀ i : grid1.Coords, EltTy.bits .f32 = 32 ∨ (Rect.block (s := S50000x32) S1000x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x32.size a ≤ S50000x32.size a
  hwx1_6 : ∀ i : grid1.Coords, EltTy.bits .f32 = 32 ∨ (Rect.block (s := S50000x32) S1000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x32.size a ≤ S50000x32.size a
  hwx2_0 : ∀ i : grid2.Coords, EltTy.bits .f32 = 32 ∨ (Rect.block (s := S50000x32) S1000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x32.size a ≤ S50000x32.size a
  hwx2_1 : ∀ i : grid2.Coords, EltTy.bits .f32 = 32 ∨ (Rect.block (s := S50000x32) S1000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x32.size a ≤ S50000x32.size a
  hwx2_3 : ∀ i : grid2.Coords, EltTy.bits .f32 = 32 ∨ (Rect.block (s := S50000x32) S1000x32.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x1433_S1433x64_S1000x64_1_0_0_1_n_n : DotDims S1000x1433 S1433x64 S1000x64 where
  lhsContracting := [1]
  rhsContracting := [0]
  lhsNonContracting := [0]
  rhsNonContracting := [1]
  lhsBatch := []
  rhsBatch := []
  wf := dot_S1000x1433_S1433x64_S1000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1433x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S1000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S1000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29_0) S1000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_1) S1000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S1000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29_1) S1000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x1433 : Shape := ⟨2, ![50000, 1433]⟩
abbrev S2x800000 : Shape := ⟨2, ![2, 800000]⟩
abbrev S1433x64 : Shape := ⟨2, ![1433, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 110
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S2x800000, .i32⟩
  | .hbm, ⟨2, _⟩ => ⟨S1433x64, .f32⟩
  | .hbm, ⟨3, _⟩ => ⟨S64, .f32⟩
  | .hbm, ⟨4, _⟩ => ⟨S1433x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x64, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .i1⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S_, .f32⟩
  | .hbm, ⟨43, _⟩ => ⟨S_, .f32⟩
  | .hbm, ⟨44, _⟩ => ⟨S50000x64, .i1⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S50000x32, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x32, .f32⟩
  | .hbm, ⟨62, _⟩ => ⟨S_, .f32⟩
  | .hbm, ⟨63, _⟩ => ⟨S50000x32, .f32⟩
  | .hbm, ⟨64, _⟩ => ⟨S800000x1, .i32⟩
  | .hbm, ⟨65, _⟩ => ⟨S50000x32, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S50000x1, .f32⟩
  | .hbm, ⟨73, _⟩ => ⟨S_, .f32⟩
  | .hbm, ⟨74, _⟩ => ⟨S50000x1, .f32⟩
  | .hbm, ⟨75, _⟩ => ⟨S50000x1, .i1⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x32, .f32⟩
  | .hbm, ⟨81, _⟩ => ⟨S50000x32, .f32⟩
  | .hbm, ⟨82, _⟩ => ⟨S_, .f32⟩
  | .hbm, ⟨83, _⟩ => ⟨S_, .f32⟩
  | .hbm, ⟨84, _⟩ => ⟨S50000x32, .i1⟩
  | .hbm, ⟨85, _⟩ => ⟨S50000x32, .f32⟩
  | .hbm, ⟨86, _⟩ => ⟨S50000x32, .f32⟩
  | .hbm, ⟨87, _⟩ => ⟨S1x32, .f32⟩
  | .hbm, ⟨88, _⟩ => ⟨S50000x32, .f32⟩
  | .hbm, ⟨89, _⟩ => ⟨S50000x32, .f32⟩
  | .hbm, ⟨90, _⟩ => ⟨S50000x32, .f32⟩
  | .hbm, ⟨91, _⟩ => ⟨S50000x32, .f32⟩
  | .hbm, ⟨92, _⟩ => ⟨S_, .f32⟩
  | .hbm, ⟨93, _⟩ => ⟨S50000x32, .f32⟩
  | .hbm, ⟨94, _⟩ => ⟨S50000x32, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S50000x1, .f32⟩
  | .hbm, ⟨101, _⟩ => ⟨S50000x32, .f32⟩
  | .hbm, ⟨102, _⟩ => ⟨S50000x32, .f32⟩
  | .hbm, ⟨103, _⟩ => ⟨S50000x32, .f32⟩
  | .hbm, ⟨104, _⟩ => ⟨S_, .f32⟩
  | .hbm, ⟨105, _⟩ => ⟨S50000, .f32⟩
  | .hbm, ⟨106, _⟩ => ⟨S50000x1, .f32⟩
  | .hbm, ⟨107, _⟩ => ⟨S50000x1, .f32⟩
  | .hbm, ⟨108, _⟩ => ⟨S50000x32, .f32⟩
  | .hbm, ⟨109, _⟩ => ⟨S50000x32, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call2_cst : Ref sig .tc := ⟨.hbm, 92, rfl⟩
abbrev main_call2_v0 : Ref sig .tc := ⟨.hbm, 93, rfl⟩
abbrev main_v62 : Ref sig .tc := ⟨.hbm, 94, rfl⟩
abbrev main_call3_cst : Ref sig .tc := ⟨.hbm, 95, rfl⟩
abbrev main_call3_v0 : Ref sig .tc := ⟨.hbm, 96, rfl⟩
abbrev main_call3_cst_0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_cst_1 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_v63 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  dot_S50000x1433_S1433x64_S50000x64_1_0_0_1_n_n_wf : DotDims.WF S50000x1433 S1433x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def dot_S50000x1433_S1433x64_S50000x64_1_0_0_1_n_n : DotDims S50000x1433 S1433x64 S50000x64 where
  lhsContracting := [1]
  rhsContracting := [0]
  lhsNonContracting := [0]
  rhsNonContracting := [1]
  lhsBatch := []
  rhsBatch := []
  wf := dot_S50000x1433_S1433x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.Sage.lean ====
/-
  The network both programs compute, as one function of the eight argument arrays, written with the host
  operations of the reference: two rounds of "project every node's features, average the projected features of a
  node's in-neighbours, add the bias and the node's own second projection", then a rectifier and a row-wise
  log-softmax. The averaging is a gather along each edge's source, a scatter-add into its destination, and a division
  by the in-degree (at least one), with zero for a node no edge reaches.
-/
import proofs.«103264_j42296837931009_1_alg».proof.ReferenceIdeal
import proofs.«103264_j42296837931009_1_alg».proof.Proof.Gen.ReferenceIdeal

noncomputable section

namespace Cert.Sage

open Cert.ReferenceIdeal Cert.ReferenceIdeal.Gen Idealize.ShloMosaic

variable {F : FTy → Type} [FloatOps F]

/-- The source node of every edge: row 0 of the edge list. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The destination node of every edge: row 1 of the edge list. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The source node with a negative index counted from the end, as a column of gather indices. -/
def srcIdx (e : (⟨S2x800000, .i32⟩ : BufTy).Contents (Elt F)) : (⟨S800000x1, .i32⟩ : BufTy).Contents (Elt F) :=
  broadcastInDim S800000x1 ![0] bcast_S800000_S800000x1_0
    (select (cmpi .slt (srcOf e) (broadcastInDim S800000 ![] bcast_S_S800000 (constantI S_ 32 0#32)))
      (addi (srcOf e) (broadcastInDim S800000 ![] bcast_S_S800000 (constantI S_ 32 50000#32))) (srcOf e))

/-- The destination node as a column of scatter indices. -/
def dstIdx (e : (⟨S2x800000, .i32⟩ : BufTy).Contents (Elt F)) : (⟨S800000x1, .i32⟩ : BufTy).Contents (Elt F) :=
  broadcastInDim S800000x1 ![0] bcast_S800000_S800000x1_0 (dstOf e)

/-- The in-degree of every node: one added per edge at its destination. -/
def deg (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32)) (dstIdx e)
    (broadcastInDim S800000 ![] bcast_S_S800000 (constant S_ .f32 0x3F800000#32))

/-- "Some edge reaches the node", as a column. -/
def reached (e : (⟨S2x800000, .i32⟩ : BufTy).Contents (Elt F)) : (⟨S50000x1, .i1⟩ : BufTy).Contents (Elt F) :=
  cmpf .ogt (broadcastInDim S50000x1 ![0] bcast_S50000_S50000x1_0 (deg e))
    (broadcastInDim S50000x1 ![] bcast_S_S50000x1 (constant S_ .f32 0x00000000#32))

/-- The in-degree, at least one, as a column. -/
def degSafe (e : (⟨S2x800000, .i32⟩ : BufTy).Contents (Elt F)) : (⟨S50000x1, .f32⟩ : BufTy).Contents (Elt F) :=
  broadcastInDim S50000x1 ![0] bcast_S50000_S50000x1_0
    (maximumf (deg e) (broadcastInDim S50000 ![] bcast_S_S50000 (constant S_ .f32 0x3F800000#32)))

/-- The mean of the 64 projected features over a node's in-neighbours (zero for a node no edge reaches). -/
def mean64 (e : (⟨S2x800000, .i32⟩ : BufTy).Contents (Elt F)) (msg : (⟨S50000x64, .f32⟩ : BufTy).Contents (Elt F)) :
    (⟨S50000x64, .f32⟩ : BufTy).Contents (Elt F) :=
  select (broadcastInDim S50000x64 ![0, 1] bcast_S50000x1_S50000x64_0_1 (reached e))
    (Host.divf
      (Host.scatterAdd scatter_S50000x64_S800000x1_S800000x64_1_0_0_1
        (broadcastInDim S50000x64 ![] bcast_S_S50000x64 (constant S_ .f32 0x00000000#32)) (dstIdx e)
        (Host.gather gather_S50000x64_S800000x1_S800000x64_1_0_n_n_0_1_164 msg (srcIdx e)))
      (broadcastInDim S50000x64 ![0, 1] bcast_S50000x1_S50000x64_0_1 (degSafe e)))
    (broadcastInDim S50000x64 ![] bcast_S_S50000x64 (id (constant S_ .f32 0x00000000#32)))

/-- The mean of the 32 projected features over a node's in-neighbours (zero for a node no edge reaches). -/
def mean32 (e : (⟨S2x800000, .i32⟩ : BufTy).Contents (Elt F)) (msg : (⟨S50000x32, .f32⟩ : BufTy).Contents (Elt F)) :
    (⟨S50000x32, .f32⟩ : BufTy).Contents (Elt F) :=
  select (broadcastInDim S50000x32 ![0, 1] bcast_S50000x1_S50000x32_0_1 (reached e))
    (Host.divf
      (Host.scatterAdd scatter_S50000x32_S800000x1_S800000x32_1_0_0_1
        (broadcastInDim S50000x32 ![] bcast_S_S50000x32 (constant S_ .f32 0x00000000#32)) (dstIdx e)
        (Host.gather gather_S50000x32_S800000x1_S800000x32_1_0_n_n_0_1_132 msg (srcIdx e)))
      (broadcastInDim S50000x32 ![0, 1] bcast_S50000x1_S50000x32_0_1 (degSafe e)))
    (broadcastInDim S50000x32 ![] bcast_S_S50000x32 (id (constant S_ .f32 0x00000000#32)))

/-- The first layer's output: the neighbours' mean plus the bias row plus the node's own projection. -/
def hidden (a : (⟨S50000x64, .f32⟩ : BufTy).Contents (Elt F)) (b : (⟨S1x64, .f32⟩ : BufTy).Contents (Elt F))
    (xr : (⟨S50000x64, .f32⟩ : BufTy).Contents (Elt F)) : (⟨S50000x64, .f32⟩ : BufTy).Contents (Elt F) :=
  addf (addf a (broadcastInDim S50000x64 ![0, 1] bcast_S1x64_S50000x64_0_1 b)) xr

/-- The second layer's output, rectified. -/
def rect (a : (⟨S50000x32, .f32⟩ : BufTy).Contents (Elt F)) (b : (⟨S1x32, .f32⟩ : BufTy).Contents (Elt F))
    (xr : (⟨S50000x32, .f32⟩ : BufTy).Contents (Elt F)) : (⟨S50000x32, .f32⟩ : BufTy).Contents (Elt F) :=
  maximumf (addf (addf a (broadcastInDim S50000x32 ![0, 1] bcast_S1x32_S50000x32_0_1 b)) xr)
    (broadcastInDim S50000x32 ![] bcast_S_S50000x32 (constant S_ .f32 0x00000000#32))

/-- A row's entries minus the row's maximum. -/
def shifted (h : (⟨S50000x32, .f32⟩ : BufTy).Contents (Elt F)) : (⟨S50000x32, .f32⟩ : BufTy).Contents (Elt F) :=
  subf h (broadcastInDim S50000x32 ![0, 1] bcast_S50000x1_S50000x32_0_1
    (broadcastInDim S50000x1 ![0] bcast_S50000_S50000x1_0
      (maximumf (broadcastInDim S50000 ![] bcast_S_S50000 (constant S_ .f32 0xFF800000#32))
        (Host.reduce FloatOps.maximumf h (constant S_ .f32 0xFF800000#32) reducesTo_S50000x32_S50000_d1 h_S_))))

/-- The row-wise log-softmax: the shifted entries minus the logarithm of the sum of their exponentials. -/
def logSoftmax (h : (⟨S50000x32, .f32⟩ : BufTy).Contents (Elt F)) : (⟨S50000x32, .f32⟩ : BufTy).Contents (Elt F) :=
  subf (shifted h) (broadcastInDim S50000x32 ![0, 1] bcast_S50000x1_S50000x32_0_1
    (Host.log (broadcastInDim S50000x1 ![0] bcast_S50000_S50000x1_0
      (Host.reduceAdd (Host.exp (shifted h)) (constant S_ .f32 0x00000000#32) reducesTo_S50000x32_S50000_d1 h_S_))))

/-- The two projections of the first layer. -/
abbrev proj1 (x : (⟨S50000x1433, .f32⟩ : BufTy).Contents (Elt F)) (w : (⟨S1433x64, .f32⟩ : BufTy).Contents (Elt F)) :
    (⟨S50000x64, .f32⟩ : BufTy).Contents (Elt F) :=
  Host.dotGeneral dot_S50000x1433_S1433x64_S50000x64_1_0_0_1_n_n none x w

/-- The two projections of the second layer. -/
abbrev proj2 (h : (⟨S50000x64, .f32⟩ : BufTy).Contents (Elt F)) (w : (⟨S64x32, .f32⟩ : BufTy).Contents (Elt F)) :
    (⟨S50000x32, .f32⟩ : BufTy).Contents (Elt F) :=
  Host.dotGeneral dot_S50000x64_S64x32_S50000x32_1_0_0_1_n_n none h w

end Cert.Sage

end
-- ==== Proof.KHost.lean ====
/-
  The host stretches of the kernel's program, read off the boundary contents the frame names. Before the first
  pallas_call the edge list is split into sources and destinations and the in-degrees are counted; between the calls the
  projected features are gathered along the edges, summed at the destinations and divided by the in-degree, and the bias
  is laid out as a row. Each boundary value is stated as the shared network's function of the argument arrays and of the
  preceding call's output arrays.
-/
import proofs.«103264_j42296837931009_1_alg».proof.Proof.Gen.KernelIdeal.Frame
import proofs.«103264_j42296837931009_1_alg».proof.Proof.Sage
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.Host

open Cert.KernelIdeal Cert.KernelIdeal.Gen

variable {F : FTy → Type} [FloatOps F]
variable (m : (ℓ : Loc nD τ sig) → Buf (Elt F) ℓ) (ρ : Dev nD → PrngReg)

/-! ## Two spellings of one array -/

/-- Comparing a vector with a splat and then making the result a column is comparing the column with the splat column. -/
theorem column_cmp (p : CmpFPredicate) (h0 : S50000.BroadcastsInDim S50000x1 ![0]) (hs : S_.BroadcastsInDim S50000 ![])
    (hs1 : S_.BroadcastsInDim S50000x1 ![]) (d : FVec F S50000 .f32) (z : FVec F S_ .f32) :
    broadcastInDim S50000x1 ![0] h0 (cmpf p d (broadcastInDim S50000 ![] hs z))
      = cmpf p (broadcastInDim S50000x1 ![0] h0 d) (broadcastInDim S50000x1 ![] hs1 z) := by
  funext i
  show FloatOps.cmpf p _ (z _) = FloatOps.cmpf p _ (z _)
  congr 2
  funext a
  exact a.elim0

/-- A vector laid out as one row by a reshape is the vector broadcast along a new leading unit axis. -/
theorem row_of_vector {α : Type} {n : ℕ} (hsc : (⟨1, ![n]⟩ : Shape).ShapeCasts ⟨2, ![1, n]⟩)
    (hb : (⟨1, ![n]⟩ : Shape).BroadcastsInDim ⟨2, ![1, n]⟩ ![1]) (b : (⟨1, ![n]⟩ : Shape).Idx → α) :
    shapeCast ⟨2, ![1, n]⟩ b hsc = broadcastInDim ⟨2, ![1, n]⟩ ![1] hb b := by
  funext i
  obtain ⟨u, j, rfl⟩ : ∃ (u : Fin 1) (j : Fin n), i = ix2 u j := ⟨i 0, i 1, eq_ix2 i⟩
  rw [shapeCast_a_1a_apply]
  refine (broadcastInDim_apply ![1] hb b (ix2 u j) (ix1 j) fun a => ?_).symm
  match a with
  | ⟨0, _⟩ =>
    show j.val = if n = 1 then 0 else j.val
    split
    · have := j.isLt; omega
    · rfl

/-! ## Before the first call -/

theorem W1_src (c : Dev nD) : W1 m ρ c (Proc.devRef .tc main_v1) = Cert.Sage.srcOf (m ((c : Thread nD τ).loc main_arg1)) := by
  show StableHlo.after hostOps0 (W0 m ρ c) (Proc.devRef .tc main_v1) = _
  after_results_simp
  rfl

theorem W1_dst (c : Dev nD) : W1 m ρ c (Proc.devRef .tc main_v3) = Cert.Sage.dstOf (m ((c : Thread nD τ).loc main_arg1)) := by
  show StableHlo.after hostOps0 (W0 m ρ c) (Proc.devRef .tc main_v3) = _
  after_results_simp
  rfl

theorem W1_degFloor (c : Dev nD) : W1 m ρ c (Proc.devRef .tc main_v9)
    = maximumf (Cert.Sage.deg (m ((c : Thread nD τ).loc main_arg1)))
        (broadcastInDim S50000 ![] bcast_S_S50000 (constant (F := F) S_ .f32 0x3F800000#32)) := by
  show StableHlo.after hostOps0 (W0 m ρ c) (Proc.devRef .tc main_v9) = _
  after_results_simp
  rfl

theorem W1_reached (c : Dev nD) : W1 m ρ c (Proc.devRef .tc main_v11)
    = cmpf (F := F) .ogt (Cert.Sage.deg (m ((c : Thread nD τ).loc main_arg1)))
        (broadcastInDim S50000 ![] bcast_S_S50000 (constant (F := F) S_ .f32 0x00000000#32)) := by
  show StableHlo.after hostOps0 (W0 m ρ c) (Proc.devRef .tc main_v11) = _
  after_results_simp
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp

theorem W1_arg3 (c : Dev nD) : W1 m ρ c (Proc.devRef .tc main_arg3) = m ((c : Thread nD τ).loc main_arg3) := by
  show StableHlo.after hostOps0 (W0 m ρ c) (Proc.devRef .tc main_arg3) = _
  after_results_simp

/-! ## Across the first call -/

theorem W2_src (c : Dev nD) : W2 m ρ c (Proc.devRef .tc main_v1) = Cert.Sage.srcOf (m ((c : Thread nD τ).loc main_arg1)) :=
  (W2_of_ne m ρ c main_v1 (by decide)).trans (W1_src m ρ c)
theorem W2_dst (c : Dev nD) : W2 m ρ c (Proc.devRef .tc main_v3) = Cert.Sage.dstOf (m ((c : Thread nD τ).loc main_arg1)) :=
  (W2_of_ne m ρ c main_v3 (by decide)).trans (W1_dst m ρ c)
theorem W2_degFloor (c : Dev nD) : W2 m ρ c (Proc.devRef .tc main_v9)
    = maximumf (Cert.Sage.deg (m ((c : Thread nD τ).loc main_arg1)))
        (broadcastInDim S50000 ![] bcast_S_S50000 (constant (F := F) S_ .f32 0x3F800000#32)) :=
  (W2_of_ne m ρ c main_v9 (by decide)).trans (W1_degFloor m ρ c)
theorem W2_reached (c : Dev nD) : W2 m ρ c (Proc.devRef .tc main_v11)
    = cmpf (F := F) .ogt (Cert.Sage.deg (m ((c : Thread nD τ).loc main_arg1)))
        (broadcastInDim S50000 ![] bcast_S_S50000 (constant (F := F) S_ .f32 0x00000000#32)) :=
  (W2_of_ne m ρ c main_v11 (by decide)).trans (W1_reached m ρ c)

/-! ## Between the first and the second call -/

theorem W5_mean (c : Dev nD) : W5 m ρ c (Proc.devRef .tc main_v27)
    = Cert.Sage.mean64 (m ((c : Thread nD τ).loc main_arg1)) (W2 m ρ c (Proc.devRef .tc main_v12_0)) := by
  show StableHlo.after hostOps1_2 (StableHlo.after hostOps1_1 (StableHlo.after hostOps1 (W2 m ρ c))) (Proc.devRef .tc main_v27) = _
  after_results_simp
  simp only [TRef.ofBuf, TRef.toBuf, cast_eq]
  rw [W2_src, W2_dst, W2_degFloor, W2_reached, column_cmp _ _ _ Cert.ReferenceIdeal.Gen.bcast_S_S50000x1]
  rfl

theorem W5_row (c : Dev nD) : W5 m ρ c (Proc.devRef .tc main_v28) = broadcastInDim S1x64 ![1] Cert.ReferenceIdeal.Gen.bcast_S64_S1x64_1 (m ((c : Thread nD τ).loc main_arg3)) := by
  show StableHlo.after hostOps1_2 (StableHlo.after hostOps1_1 (StableHlo.after hostOps1 (W2 m ρ c))) (Proc.devRef .tc main_v28) = _
  after_results_simp
  rw [W2_of_ne m ρ c main_arg3 (by decide), W1_arg3]
  exact row_of_vector _ _ _

theorem W5_own (c : Dev nD) : W5 m ρ c (Proc.devRef .tc main_v12_1) = W2 m ρ c (Proc.devRef .tc main_v12_1) := by
  show StableHlo.after hostOps1_2 (StableHlo.after hostOps1_1 (StableHlo.after hostOps1 (W2 m ρ c))) (Proc.devRef .tc main_v12_1) = _
  after_results_simp

theorem W5_arg5 (c : Dev nD) : W5 m ρ c (Proc.devRef .tc main_arg5) = m ((c : Thread nD τ).loc main_arg5) := by
  show StableHlo.after hostOps1_2 (StableHlo.after hostOps1_1 (StableHlo.after hostOps1 (W2 m ρ c))) (Proc.devRef .tc main_arg5) = _
  after_results_simp
  rw [W2_of_ne m ρ c main_arg5 (by decide)]
  show StableHlo.after hostOps0 (W0 m ρ c) (Proc.devRef .tc main_arg5) = _
  after_results_simp

theorem W5_arg7 (c : Dev nD) : W5 m ρ c (Proc.devRef .tc main_arg7) = m ((c : Thread nD τ).loc main_arg7) := by
  show StableHlo.after hostOps1_2 (StableHlo.after hostOps1_1 (StableHlo.after hostOps1 (W2 m ρ c))) (Proc.devRef .tc main_arg7) = _
  after_results_simp
  rw [W2_of_ne m ρ c main_arg7 (by decide)]
  show StableHlo.after hostOps0 (W0 m ρ c) (Proc.devRef .tc main_arg7) = _
  after_results_simp

/-! ## Across the second call, and up to the third -/

theorem W6_src (c : Dev nD) : W6 m ρ c (Proc.devRef .tc main_v1) = Cert.Sage.srcOf (m ((c : Thread nD τ).loc main_arg1)) := by
  rw [W6_of_ne m ρ c main_v1 (by decide)]
  show StableHlo.after hostOps1_2 (StableHlo.after hostOps1_1 (StableHlo.after hostOps1 (W2 m ρ c))) (Proc.devRef .tc main_v1) = _
  after_results_simp
  exact W2_src m ρ c
theorem W6_dst (c : Dev nD) : W6 m ρ c (Proc.devRef .tc main_v3) = Cert.Sage.dstOf (m ((c : Thread nD τ).loc main_arg1)) := by
  rw [W6_of_ne m ρ c main_v3 (by decide)]
  show StableHlo.after hostOps1_2 (StableHlo.after hostOps1_1 (StableHlo.after hostOps1 (W2 m ρ c))) (Proc.devRef .tc main_v3) = _
  after_results_simp
  exact W2_dst m ρ c
theorem W6_degFloor (c : Dev nD) : W6 m ρ c (Proc.devRef .tc main_v9) = maximumf (Cert.Sage.deg (m ((c : Thread nD τ).loc main_arg1)))
        (broadcastInDim S50000 ![] bcast_S_S50000 (constant (F := F) S_ .f32 0x3F800000#32)) := by
  rw [W6_of_ne m ρ c main_v9 (by decide)]
  show StableHlo.after hostOps1_2 (StableHlo.after hostOps1_1 (StableHlo.after hostOps1 (W2 m ρ c))) (Proc.devRef .tc main_v9) = _
  after_results_simp
  exact W2_degFloor m ρ c
theorem W6_reached (c : Dev nD) : W6 m ρ c (Proc.devRef .tc main_v11) = cmpf (F := F) .ogt (Cert.Sage.deg (m ((c : Thread nD τ).loc main_arg1)))
        (broadcastInDim S50000 ![] bcast_S_S50000 (constant (F := F) S_ .f32 0x00000000#32)) := by
  rw [W6_of_ne m ρ c main_v11 (by decide)]
  show StableHlo.after hostOps1_2 (StableHlo.after hostOps1_1 (StableHlo.after hostOps1 (W2 m ρ c))) (Proc.devRef .tc main_v11) = _
  after_results_simp
  exact W2_reached m ρ c

theorem W9_mean (c : Dev nD) : W9 m ρ c (Proc.devRef .tc main_v44)
    = Cert.Sage.mean32 (m ((c : Thread nD τ).loc main_arg1)) (W6 m ρ c (Proc.devRef .tc main_v29_0)) := by
  show StableHlo.after hostOps2_2 (StableHlo.after hostOps2_1 (StableHlo.after hostOps2 (W6 m ρ c))) (Proc.devRef .tc main_v44) = _
  after_results_simp
  simp only [TRef.ofBuf, TRef.toBuf, cast_eq]
  rw [W6_src, W6_dst, W6_degFloor, W6_reached, column_cmp _ _ _ Cert.ReferenceIdeal.Gen.bcast_S_S50000x1]
  rfl

theorem W9_row (c : Dev nD) : W9 m ρ c (Proc.devRef .tc main_v45) = broadcastInDim S1x32 ![1] Cert.ReferenceIdeal.Gen.bcast_S32_S1x32_1 (m ((c : Thread nD τ).loc main_arg6)) := by
  show StableHlo.after hostOps2_2 (StableHlo.after hostOps2_1 (StableHlo.after hostOps2 (W6 m ρ c))) (Proc.devRef .tc main_v45) = _
  after_results_simp
  rw [W6_of_ne m ρ c main_arg6 (by decide)]
  show (fun i => shapeCast _ (StableHlo.after hostOps1_2 (StableHlo.after hostOps1_1 (StableHlo.after hostOps1 (W2 m ρ c))) (Proc.devRef .tc main_arg6)) _ i) = _
  after_results_simp
  rw [W2_of_ne m ρ c main_arg6 (by decide)]
  show (fun i => shapeCast _ (StableHlo.after hostOps0 (W0 m ρ c) (Proc.devRef .tc main_arg6)) _ i) = _
  after_results_simp
  exact row_of_vector _ _ _

theorem W9_own (c : Dev nD) : W9 m ρ c (Proc.devRef .tc main_v29_1) = W6 m ρ c (Proc.devRef .tc main_v29_1) := by
  show StableHlo.after hostOps2_2 (StableHlo.after hostOps2_1 (StableHlo.after hostOps2 (W6 m ρ c))) (Proc.devRef .tc main_v29_1) = _
  after_results_simp

end Cert.KernelIdeal.Host

end
-- ==== Proof.Network.lean ====
/-
  The whole network as one function of the eight argument arrays: the hidden features of the first layer, and the
  log-softmax of the rectified second layer over them.
-/
import proofs.«103264_j42296837931009_1_alg».proof.Proof.Sage

noncomputable section

namespace Cert.Sage

open Cert.ReferenceIdeal Cert.ReferenceIdeal.Gen Idealize.ShloMosaic

variable {F : FTy → Type} [FloatOps F]

/-- The first layer: the in-neighbours' mean of the features' first projection, plus the bias, plus the second
    projection of the node's own features. -/
def hiddenOf (x0 : (⟨S50000x1433, .f32⟩ : BufTy).Contents (Elt F)) (x1 : (⟨S2x800000, .i32⟩ : BufTy).Contents (Elt F)) (x2 : (⟨S1433x64, .f32⟩ : BufTy).Contents (Elt F))
    (x3 : (⟨S64, .f32⟩ : BufTy).Contents (Elt F)) (x4 : (⟨S1433x64, .f32⟩ : BufTy).Contents (Elt F)) : (⟨S50000x64, .f32⟩ : BufTy).Contents (Elt F) :=
  hidden (mean64 x1 (proj1 x0 x2)) (broadcastInDim S1x64 ![1] bcast_S64_S1x64_1 x3) (proj1 x0 x4)

/-- The network: the second layer over the hidden features, rectified, then the row-wise log-softmax. -/
def network (x0 : (⟨S50000x1433, .f32⟩ : BufTy).Contents (Elt F)) (x1 : (⟨S2x800000, .i32⟩ : BufTy).Contents (Elt F)) (x2 : (⟨S1433x64, .f32⟩ : BufTy).Contents (Elt F))
    (x3 : (⟨S64, .f32⟩ : BufTy).Contents (Elt F)) (x4 : (⟨S1433x64, .f32⟩ : BufTy).Contents (Elt F)) (x5 : (⟨S64x32, .f32⟩ : BufTy).Contents (Elt F)) (x6 : (⟨S32, .f32⟩ : BufTy).Contents (Elt F))
    (x7 : (⟨S64x32, .f32⟩ : BufTy).Contents (Elt F)) : (⟨S50000x32, .f32⟩ : BufTy).Contents (Elt F) :=
  logSoftmax (rect (mean32 x1 (proj2 (hiddenOf x0 x1 x2 x3 x4) x5)) (broadcastInDim S1x32 ![1] bcast_S32_S1x32_1 x6)
    (proj2 (hiddenOf x0 x1 x2 x3 x4) x7))

end Cert.Sage

end
-- ==== Proof.KValue.lean ====
/-
  The kernel's result array as the network of the argument arrays. Each pallas_call leaves in its output arrays a
  whole-array function of the arrays it finds at entry (the five facts of `Calls`); the host stretches between the calls
  are read off the boundary contents; chained from the launch to the return they give the network.
-/
import proofs.«103264_j42296837931009_1_alg».proof.Proof.KHost
import proofs.«103264_j42296837931009_1_alg».proof.Proof.Network

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

/-- What the three pallas_calls leave in their output arrays, each as a function of the arrays the call finds at entry:
    the two first-layer projections; the two second-layer projections of the hidden features; the log-softmax of the
    rectified second layer. -/
structure Calls : Prop where
  msg1 : ∀ (V : (c : Dev nD) → (b : Ref sig .tc) → Buf (Elt Ideal) ((c : Thread nD τ).loc b)) (c : Dev nD),
    (dat0 (F := Ideal) V c).arrAt 3 cfg0.N = Cert.Sage.proj1 (F := Ideal) (V c main_arg0) (V c main_arg2)
  own1 : ∀ (V : (c : Dev nD) → (b : Ref sig .tc) → Buf (Elt Ideal) ((c : Thread nD τ).loc b)) (c : Dev nD),
    (dat0 (F := Ideal) V c).arrAt 4 cfg0.N = Cert.Sage.proj1 (F := Ideal) (V c main_arg0) (V c main_arg4)
  msg2 : ∀ (V : (c : Dev nD) → (b : Ref sig .tc) → Buf (Elt Ideal) ((c : Thread nD τ).loc b)) (c : Dev nD),
    (dat1 (F := Ideal) V c).arrAt 5 cfg1.N
      = Cert.Sage.proj2 (F := Ideal) (Cert.Sage.hidden (F := Ideal) (V c main_v27) (V c main_v28) (V c main_v12_1)) (V c main_arg5)
  own2 : ∀ (V : (c : Dev nD) → (b : Ref sig .tc) → Buf (Elt Ideal) ((c : Thread nD τ).loc b)) (c : Dev nD),
    (dat1 (F := Ideal) V c).arrAt 6 cfg1.N
      = Cert.Sage.proj2 (F := Ideal) (Cert.Sage.hidden (F := Ideal) (V c main_v27) (V c main_v28) (V c main_v12_1)) (V c main_arg7)
  out : ∀ (V : (c : Dev nD) → (b : Ref sig .tc) → Buf (Elt Ideal) ((c : Thread nD τ).loc b)) (c : Dev nD),
    (dat2 (F := Ideal) V c).arrAt 3 cfg2.N
      = Cert.Sage.logSoftmax (F := Ideal) (Cert.Sage.rect (F := Ideal) (V c main_v44) (V c main_v45) (V c main_v29_1))

variable (m : (ℓ : Loc nD τ sig) → Buf (Elt Ideal) ℓ) (ρ : Dev nD → PrngReg)

theorem W1_arg2 (c : Dev nD) : W1 m ρ c (Proc.devRef .tc main_arg2) = m ((c : Thread nD τ).loc main_arg2) := by
  show StableHlo.after hostOps0 (W0 m ρ c) (Proc.devRef .tc main_arg2) = _
  after_results_simp

theorem W1_arg4 (c : Dev nD) : W1 m ρ c (Proc.devRef .tc main_arg4) = m ((c : Thread nD τ).loc main_arg4) := by
  show StableHlo.after hostOps0 (W0 m ρ c) (Proc.devRef .tc main_arg4) = _
  after_results_simp

/-- After the first call its first output array holds the features' projection on the neighbour weights. -/
theorem first_msg (L : Calls) (c : Dev nD) :
    W2 m ρ c (Proc.devRef .tc main_v12_0) = Cert.Sage.proj1 (F := Ideal) (m ((c : Thread nD τ).loc main_arg0)) (m ((c : Thread nD τ).loc main_arg2)) := by
  rw [show W2 m ρ c (Proc.devRef .tc main_v12_0) = _ from W2_arr m ρ c 3, L.msg1]
  show Cert.Sage.proj1 (F := Ideal) (W1 m ρ c (Proc.devRef .tc main_arg0)) (W1 m ρ c (Proc.devRef .tc main_arg2)) = _
  rw [W1_arg0, W1_arg2]

/-- And its second output array the projection on the node's own weights. -/
theorem first_own (L : Calls) (c : Dev nD) :
    W2 m ρ c (Proc.devRef .tc main_v12_1) = Cert.Sage.proj1 (F := Ideal) (m ((c : Thread nD τ).loc main_arg0)) (m ((c : Thread nD τ).loc main_arg4)) := by
  rw [show W2 m ρ c (Proc.devRef .tc main_v12_1) = _ from W2_arr m ρ c 4, L.own1]
  show Cert.Sage.proj1 (F := Ideal) (W1 m ρ c (Proc.devRef .tc main_arg0)) (W1 m ρ c (Proc.devRef .tc main_arg4)) = _
  rw [W1_arg0, W1_arg4]

/-- What the second call forms from the arrays it finds is the first layer's hidden features. -/
theorem hidden_eq (L : Calls) (c : Dev nD) :
    Cert.Sage.hidden (F := Ideal) (W5 m ρ c (Proc.devRef .tc main_v27)) (W5 m ρ c (Proc.devRef .tc main_v28))
        (W5 m ρ c (Proc.devRef .tc main_v12_1))
      = Cert.Sage.hiddenOf (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [W5_mean, W5_row, W5_own, first_msg m ρ L, first_own m ρ L]
  rfl

theorem second_msg (L : Calls) (c : Dev nD) :
    W6 m ρ c (Proc.devRef .tc main_v29_0)
      = Cert.Sage.proj2 (F := Ideal) (Cert.Sage.hiddenOf (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  rw [show W6 m ρ c (Proc.devRef .tc main_v29_0) = _ from W6_arr m ρ c 5, L.msg2]
  show Cert.Sage.proj2 (F := Ideal) (Cert.Sage.hidden (F := Ideal) (W5 m ρ c (Proc.devRef .tc main_v27))
    (W5 m ρ c (Proc.devRef .tc main_v28)) (W5 m ρ c (Proc.devRef .tc main_v12_1))) (W5 m ρ c (Proc.devRef .tc main_arg5)) = _
  rw [hidden_eq m ρ L, W5_arg5]

theorem second_own (L : Calls) (c : Dev nD) :
    W6 m ρ c (Proc.devRef .tc main_v29_1)
      = Cert.Sage.proj2 (F := Ideal) (Cert.Sage.hiddenOf (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg7)) := by
  rw [show W6 m ρ c (Proc.devRef .tc main_v29_1) = _ from W6_arr m ρ c 6, L.own2]
  show Cert.Sage.proj2 (F := Ideal) (Cert.Sage.hidden (F := Ideal) (W5 m ρ c (Proc.devRef .tc main_v27))
    (W5 m ρ c (Proc.devRef .tc main_v28)) (W5 m ρ c (Proc.devRef .tc main_v12_1))) (W5 m ρ c (Proc.devRef .tc main_arg7)) = _
  rw [hidden_eq m ρ L, W5_arg7]

/-- THE RESULT: at the return the result array holds the network of the argument arrays. -/
theorem result_eq (L : Calls) (c : Dev nD) :
    W10 m ρ c (Proc.devRef .tc main_v46)
      = Cert.Sage.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W10 m ρ c (Proc.devRef .tc main_v46) = _ from W10_arr m ρ c 3, L.out]
  show Cert.Sage.logSoftmax (F := Ideal) (Cert.Sage.rect (F := Ideal) (W9 m ρ c (Proc.devRef .tc main_v44))
    (W9 m ρ c (Proc.devRef .tc main_v45)) (W9 m ρ c (Proc.devRef .tc main_v29_1))) = _
  rw [W9_mean, W9_row, W9_own, second_msg m ρ L, second_own m ρ L]
  rfl

end Cert.KernelIdeal.Host

end
-- ==== Proof.RefValue.lean ====
/-
  The reference's run, piece by piece. Its @main is a straight line of host operations; cut in eleven consecutive
  pieces (a called function's operations apart from @main's own), each piece's results that later pieces read are named
  functions (Sage.lean) of the buffers the piece finds, and every other buffer a later piece reads is left as found.
  Chained from the launch memory, the result buffer holds the network of the argument arrays.
-/
import proofs.«103264_j42296837931009_1_alg».proof.Proof.RefOps
import proofs.«103264_j42296837931009_1_alg».proof.Proof.Network
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.Walk

open Cert.ReferenceIdeal Cert.ReferenceIdeal.Gen Cert.ReferenceIdeal.Ops

variable {F : FTy → Type} [FloatOps F]

/-- The projected features summed over a node's in-neighbours and divided by the in-degree (at least one): 64 columns. -/
def quot64 (e : (⟨S2x800000, .i32⟩ : BufTy).Contents (Elt F)) (msg : (⟨S50000x64, .f32⟩ : BufTy).Contents (Elt F)) : (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32)) (Cert.Sage.dstIdx e)
      (Host.gather gather_S50000x64_S800000x1_S800000x64_1_0_n_n_0_1_164 msg (Cert.Sage.srcIdx e)))
    (broadcastInDim S50000x64 ![0, 1] bcast_S50000x1_S50000x64_0_1 (Cert.Sage.degSafe e))

/-- The same over 32 columns. -/
def quot32 (e : (⟨S2x800000, .i32⟩ : BufTy).Contents (Elt F)) (msg : (⟨S50000x32, .f32⟩ : BufTy).Contents (Elt F)) : (⟨S50000x32, .f32⟩ : BufTy).Contents (Elt F) :=
  Host.divf
    (Host.scatterAdd scatter_S50000x32_S800000x1_S800000x32_1_0_0_1
      (broadcastInDim S50000x32 ![] bcast_S_S50000x32 (constant S_ .f32 0x00000000#32)) (Cert.Sage.dstIdx e)
      (Host.gather gather_S50000x32_S800000x1_S800000x32_1_0_n_n_0_1_132 msg (Cert.Sage.srcIdx e)))
    (broadcastInDim S50000x32 ![0, 1] bcast_S50000x1_S50000x32_0_1 (Cert.Sage.degSafe e))

/-- The mean is the quotient where some edge reaches the node and zero elsewhere. -/
theorem mean64_eq (e : (⟨S2x800000, .i32⟩ : BufTy).Contents (Elt F)) (msg : (⟨S50000x64, .f32⟩ : BufTy).Contents (Elt F)) :
    Cert.Sage.mean64 e msg = select (broadcastInDim S50000x64 ![0, 1] bcast_S50000x1_S50000x64_0_1 (Cert.Sage.reached e))
      (quot64 e msg) (broadcastInDim S50000x64 ![] bcast_S_S50000x64 (id (constant S_ .f32 0x00000000#32))) := rfl

theorem mean32_eq (e : (⟨S2x800000, .i32⟩ : BufTy).Contents (Elt F)) (msg : (⟨S50000x32, .f32⟩ : BufTy).Contents (Elt F)) :
    Cert.Sage.mean32 e msg = select (broadcastInDim S50000x32 ![0, 1] bcast_S50000x1_S50000x32_0_1 (Cert.Sage.reached e))
      (quot32 e msg) (broadcastInDim S50000x32 ![] bcast_S_S50000x32 (id (constant S_ .f32 0x00000000#32))) := rfl

variable (V : Valuation τ sig (Elt F))

/-! ## Piece 1: sources, destinations, degrees, the first quotient -/

theorem one_src : after (ops1 (F := F)) V (Proc.devRef .tc main_v1) = Cert.Sage.srcOf (V (Proc.devRef .tc main_arg1)) := by
  after_results_simp
  try rfl

theorem one_dst : after (ops1 (F := F)) V (Proc.devRef .tc main_v3) = Cert.Sage.dstOf (V (Proc.devRef .tc main_arg1)) := by
  after_results_simp
  try rfl

theorem one_reached : after (ops1 (F := F)) V (Proc.devRef .tc main_v21) = Cert.Sage.reached (V (Proc.devRef .tc main_arg1)) := by
  after_results_simp
  try rfl

theorem one_quot : after (ops1 (F := F)) V (Proc.devRef .tc main_v26)
    = quot64 (V (Proc.devRef .tc main_arg1)) (Cert.Sage.proj1 (V (Proc.devRef .tc main_arg0)) (V (Proc.devRef .tc main_arg2))) := by
  after_results_simp
  try rfl

theorem one_zero : after (ops1 (F := F)) V (Proc.devRef .tc main_cst_5) = constant (F := F) S_ .f32 0x00000000#32 := by
  after_results_simp

theorem keep1_arg0 : after (ops1 (F := F)) V (Proc.devRef .tc main_arg0) = V (Proc.devRef .tc main_arg0) := by
  after_results_simp
theorem keep1_arg3 : after (ops1 (F := F)) V (Proc.devRef .tc main_arg3) = V (Proc.devRef .tc main_arg3) := by
  after_results_simp
theorem keep1_arg4 : after (ops1 (F := F)) V (Proc.devRef .tc main_arg4) = V (Proc.devRef .tc main_arg4) := by
  after_results_simp
theorem keep1_arg5 : after (ops1 (F := F)) V (Proc.devRef .tc main_arg5) = V (Proc.devRef .tc main_arg5) := by
  after_results_simp
theorem keep1_arg6 : after (ops1 (F := F)) V (Proc.devRef .tc main_arg6) = V (Proc.devRef .tc main_arg6) := by
  after_results_simp
theorem keep1_arg7 : after (ops1 (F := F)) V (Proc.devRef .tc main_arg7) = V (Proc.devRef .tc main_arg7) := by
  after_results_simp

/-! ## Piece 2: the first `where` -/

theorem two_where : after (ops2 (F := F)) V (Proc.devRef .tc main_v27)
    = select (broadcastInDim S50000x64 ![0, 1] bcast_S50000x1_S50000x64_0_1 (V (Proc.devRef .tc main_v21))) (V (Proc.devRef .tc main_v26))
        (broadcastInDim S50000x64 ![] bcast_S_S50000x64 (id (V (Proc.devRef .tc main_cst_5)))) := by
  after_results
  simp only [TRef.ofBuf, TRef.toBuf, cast_eq]
  try rfl

theorem keep2_src : after (ops2 (F := F)) V (Proc.devRef .tc main_v1) = V (Proc.devRef .tc main_v1) := by
  after_results
theorem keep2_dst : after (ops2 (F := F)) V (Proc.devRef .tc main_v3) = V (Proc.devRef .tc main_v3) := by
  after_results
theorem keep2_arg0 : after (ops2 (F := F)) V (Proc.devRef .tc main_arg0) = V (Proc.devRef .tc main_arg0) := by
  after_results
theorem keep2_arg3 : after (ops2 (F := F)) V (Proc.devRef .tc main_arg3) = V (Proc.devRef .tc main_arg3) := by
  after_results
theorem keep2_arg4 : after (ops2 (F := F)) V (Proc.devRef .tc main_arg4) = V (Proc.devRef .tc main_arg4) := by
  after_results
theorem keep2_arg5 : after (ops2 (F := F)) V (Proc.devRef .tc main_arg5) = V (Proc.devRef .tc main_arg5) := by
  after_results
theorem keep2_arg6 : after (ops2 (F := F)) V (Proc.devRef .tc main_arg6) = V (Proc.devRef .tc main_arg6) := by
  after_results
theorem keep2_arg7 : after (ops2 (F := F)) V (Proc.devRef .tc main_arg7) = V (Proc.devRef .tc main_arg7) := by
  after_results

/-! ## Piece 3: the hidden features -/

theorem three_hidden : after (ops3 (F := F)) V (Proc.devRef .tc main_v32)
    = Cert.Sage.hidden (V (Proc.devRef .tc main_v27)) (broadcastInDim S1x64 ![1] bcast_S64_S1x64_1 (V (Proc.devRef .tc main_arg3)))
        (Cert.Sage.proj1 (V (Proc.devRef .tc main_arg0)) (V (Proc.devRef .tc main_arg4))) := by
  after_results_simp
  try rfl

theorem keep3_src : after (ops3 (F := F)) V (Proc.devRef .tc main_v1) = V (Proc.devRef .tc main_v1) := by
  after_results_simp
theorem keep3_dst : after (ops3 (F := F)) V (Proc.devRef .tc main_v3) = V (Proc.devRef .tc main_v3) := by
  after_results_simp
theorem keep3_arg5 : after (ops3 (F := F)) V (Proc.devRef .tc main_arg5) = V (Proc.devRef .tc main_arg5) := by
  after_results_simp
theorem keep3_arg6 : after (ops3 (F := F)) V (Proc.devRef .tc main_arg6) = V (Proc.devRef .tc main_arg6) := by
  after_results_simp
theorem keep3_arg7 : after (ops3 (F := F)) V (Proc.devRef .tc main_arg7) = V (Proc.devRef .tc main_arg7) := by
  after_results_simp

/-! ## Piece 4: the second quotient -/

theorem four_reached (e : (⟨S2x800000, .i32⟩ : BufTy).Contents (Elt F)) (hd : V (Proc.devRef .tc main_v3) = Cert.Sage.dstOf e) :
    after (ops4 (F := F)) V (Proc.devRef .tc main_v50) = Cert.Sage.reached e := by
  after_results_simp
  rw [hd]
  rfl

theorem four_quot (e : (⟨S2x800000, .i32⟩ : BufTy).Contents (Elt F)) (hs : V (Proc.devRef .tc main_v1) = Cert.Sage.srcOf e)
    (hd : V (Proc.devRef .tc main_v3) = Cert.Sage.dstOf e) :
    after (ops4 (F := F)) V (Proc.devRef .tc main_v55)
      = quot32 e (Cert.Sage.proj2 (V (Proc.devRef .tc main_v32)) (V (Proc.devRef .tc main_arg5))) := by
  after_results_simp
  rw [hs, hd]
  rfl

theorem four_zero : after (ops4 (F := F)) V (Proc.devRef .tc main_cst_13) = constant (F := F) S_ .f32 0x00000000#32 := by
  after_results_simp

theorem keep4_hidden : after (ops4 (F := F)) V (Proc.devRef .tc main_v32) = V (Proc.devRef .tc main_v32) := by
  after_results_simp
theorem keep4_arg6 : after (ops4 (F := F)) V (Proc.devRef .tc main_arg6) = V (Proc.devRef .tc main_arg6) := by
  after_results_simp
theorem keep4_arg7 : after (ops4 (F := F)) V (Proc.devRef .tc main_arg7) = V (Proc.devRef .tc main_arg7) := by
  after_results_simp

/-! ## Piece 5: the second `where` -/

theorem five_where : after (ops5 (F := F)) V (Proc.devRef .tc main_v56)
    = select (broadcastInDim S50000x32 ![0, 1] bcast_S50000x1_S50000x32_0_1 (V (Proc.devRef .tc main_v50))) (V (Proc.devRef .tc main_v55))
        (broadcastInDim S50000x32 ![] bcast_S_S50000x32 (id (V (Proc.devRef .tc main_cst_13)))) := by
  after_results
  simp only [TRef.ofBuf, TRef.toBuf, cast_eq]
  try rfl

theorem keep5_hidden : after (ops5 (F := F)) V (Proc.devRef .tc main_v32) = V (Proc.devRef .tc main_v32) := by
  after_results
theorem keep5_arg6 : after (ops5 (F := F)) V (Proc.devRef .tc main_arg6) = V (Proc.devRef .tc main_arg6) := by
  after_results
theorem keep5_arg7 : after (ops5 (F := F)) V (Proc.devRef .tc main_arg7) = V (Proc.devRef .tc main_arg7) := by
  after_results

/-! ## Pieces 6 and 7: the second layer's sum, rectified -/

theorem six_sum : after (ops6 (F := F)) V (Proc.devRef .tc main_v61)
    = addf (addf (V (Proc.devRef .tc main_v56)) (broadcastInDim S50000x32 ![0, 1] bcast_S1x32_S50000x32_0_1
        (broadcastInDim S1x32 ![1] bcast_S32_S1x32_1 (V (Proc.devRef .tc main_arg6)))))
        (Cert.Sage.proj2 (V (Proc.devRef .tc main_v32)) (V (Proc.devRef .tc main_arg7))) := by
  after_results_simp
  try rfl

theorem seven_relu : after (ops7 (F := F)) V (Proc.devRef .tc main_v62)
    = maximumf (V (Proc.devRef .tc main_v61)) (broadcastInDim S50000x32 ![] bcast_S_S50000x32 (constant S_ .f32 0x00000000#32)) := by
  after_results
  simp only [TRef.ofBuf, TRef.toBuf, cast_eq]
  try rfl

/-! ## Pieces 8 to 11: the log-softmax -/

/-- Piece 8 with the rows' reduction left as a parameter `g`: nothing in it is opened. -/
abbrev ops8With (g : (⟨S50000x32, .f32⟩ : BufTy).Contents (Elt F) → (⟨S_, .f32⟩ : BufTy).Contents (Elt F) → (⟨S50000, .f32⟩ : BufTy).Contents (Elt F)) :
    List (HloOp τ sig (Elt F)) :=
  [ TRef.nullary (TRef.of (T := ⟨S_, .f32⟩) main_call3_cst) (constant S_ .f32 0xFF800000#32),
    TRef.binary (TRef.of (T := ⟨S50000x32, .f32⟩) main_v62) (TRef.of (T := ⟨S_, .f32⟩) main_call3_cst) (TRef.of (T := ⟨S50000, .f32⟩) main_call3_v0) g,
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf ]

theorem ops8_eq : ops8 (F := F)
    = ops8With (fun x v => Host.reduce FloatOps.maximumf x v reducesTo_S50000x32_S50000_d1 h_S_) := rfl

theorem eight_with (g : (⟨S50000x32, .f32⟩ : BufTy).Contents (Elt F) → (⟨S_, .f32⟩ : BufTy).Contents (Elt F) → (⟨S50000, .f32⟩ : BufTy).Contents (Elt F)) :
    after (ops8With g) V (Proc.devRef .tc main_call3_v2)
      = maximumf (broadcastInDim S50000 ![] bcast_S_S50000 (constant S_ .f32 0xFF800000#32))
          (g (V (Proc.devRef .tc main_v62)) (constant S_ .f32 0xFF800000#32)) := by
  after_results
  simp only [TRef.ofBuf, TRef.toBuf, cast_eq]
  try rfl

theorem eight_max : after (ops8 (F := F)) V (Proc.devRef .tc main_call3_v2)
    = maximumf (broadcastInDim S50000 ![] bcast_S_S50000 (constant S_ .f32 0xFF800000#32))
        (Host.reduce FloatOps.maximumf (V (Proc.devRef .tc main_v62)) (constant S_ .f32 0xFF800000#32) reducesTo_S50000x32_S50000_d1 h_S_) := by
  rw [ops8_eq]
  exact eight_with V _

theorem keep8_with (g : (⟨S50000x32, .f32⟩ : BufTy).Contents (Elt F) → (⟨S_, .f32⟩ : BufTy).Contents (Elt F) → (⟨S50000, .f32⟩ : BufTy).Contents (Elt F)) :
    after (ops8With g) V (Proc.devRef .tc main_v62) = V (Proc.devRef .tc main_v62) := by
  after_results

theorem keep8_rect : after (ops8 (F := F)) V (Proc.devRef .tc main_v62) = V (Proc.devRef .tc main_v62) := by
  rw [ops8_eq]
  exact keep8_with V _

theorem nine_shift : after (ops9 (F := F)) V (Proc.devRef .tc main_call3_v5)
    = subf (V (Proc.devRef .tc main_v62)) (broadcastInDim S50000x32 ![0, 1] bcast_S50000x1_S50000x32_0_1
        (broadcastInDim S50000x1 ![0] bcast_S50000_S50000x1_0 (V (Proc.devRef .tc main_call3_v2)))) := by
  after_results
  simp only [TRef.ofBuf, TRef.toBuf, cast_eq]
  try rfl

theorem ten_sum : after (ops10 (F := F)) V (Proc.devRef .tc main_call3_v7)
    = Host.reduceAdd (Host.exp (V (Proc.devRef .tc main_call3_v5))) (constant S_ .f32 0x00000000#32) reducesTo_S50000x32_S50000_d1 h_S_ := by
  after_results
  simp only [TRef.ofBuf, TRef.toBuf, cast_eq]
  try rfl

theorem keep10_shifted : after (ops10 (F := F)) V (Proc.devRef .tc main_call3_v5) = V (Proc.devRef .tc main_call3_v5) := by
  after_results

theorem eleven_out : after (ops11 (F := F)) V (Proc.devRef .tc main_v63)
    = subf (V (Proc.devRef .tc main_call3_v5)) (broadcastInDim S50000x32 ![0, 1] bcast_S50000x1_S50000x32_0_1
        (Host.log (broadcastInDim S50000x1 ![0] bcast_S50000_S50000x1_0 (V (Proc.devRef .tc main_call3_v7))))) := by
  after_results
  simp only [TRef.ofBuf, TRef.toBuf, cast_eq]
  try rfl

/-! ## The eleven pieces in a row -/

/-- After all of @main's operations the result buffer holds the network of the buffers found at the launch. -/
theorem result : after (ops (F := F)) V (Proc.devRef .tc main_v63)
    = Cert.Sage.network (V (Proc.devRef .tc main_arg0)) (V (Proc.devRef .tc main_arg1)) (V (Proc.devRef .tc main_arg2)) (V (Proc.devRef .tc main_arg3)) (V (Proc.devRef .tc main_arg4))
        (V (Proc.devRef .tc main_arg5)) (V (Proc.devRef .tc main_arg6)) (V (Proc.devRef .tc main_arg7)) := by
  have hs : after (ops3 (F := F)) (after ops2 (after ops1 V)) (Proc.devRef .tc main_v1) = Cert.Sage.srcOf (V (Proc.devRef .tc main_arg1)) := by
    rw [keep3_src, keep2_src, one_src]
  have hd : after (ops3 (F := F)) (after ops2 (after ops1 V)) (Proc.devRef .tc main_v3) = Cert.Sage.dstOf (V (Proc.devRef .tc main_arg1)) := by
    rw [keep3_dst, keep2_dst, one_dst]
  rw [ops_split]
  simp only [StableHlo.after_append]
  rw [eleven_out, keep10_shifted, ten_sum, nine_shift, keep8_rect, eight_max, seven_relu, six_sum, five_where,
    four_reached _ _ hd, four_quot _ _ hs hd, four_zero, keep5_hidden, keep4_hidden, three_hidden, two_where,
    one_reached, one_quot, one_zero,
    keep5_arg6, keep4_arg6, keep3_arg6, keep2_arg6, keep1_arg6,
    keep5_arg7, keep4_arg7, keep3_arg7, keep2_arg7, keep1_arg7,
    keep3_arg5, keep2_arg5, keep1_arg5,
    keep2_arg3, keep1_arg3, keep2_arg0, keep1_arg0, keep2_arg4, keep1_arg4,
    ← mean64_eq, ← mean32_eq]
  rfl

/-! ## The run -/

/-! No operation writes an argument's buffer. -/

theorem ops_keep_arg0 : after (ops (F := F)) V (Proc.devRef .tc main_arg0) = V (Proc.devRef .tc main_arg0) :=
  StableHlo.after_of_forall_not_mem (b := Proc.devRef .tc main_arg0) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops_keep_arg1 : after (ops (F := F)) V (Proc.devRef .tc main_arg1) = V (Proc.devRef .tc main_arg1) :=
  StableHlo.after_of_forall_not_mem (b := Proc.devRef .tc main_arg1) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops_keep_arg2 : after (ops (F := F)) V (Proc.devRef .tc main_arg2) = V (Proc.devRef .tc main_arg2) :=
  StableHlo.after_of_forall_not_mem (b := Proc.devRef .tc main_arg2) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops_keep_arg3 : after (ops (F := F)) V (Proc.devRef .tc main_arg3) = V (Proc.devRef .tc main_arg3) :=
  StableHlo.after_of_forall_not_mem (b := Proc.devRef .tc main_arg3) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops_keep_arg4 : after (ops (F := F)) V (Proc.devRef .tc main_arg4) = V (Proc.devRef .tc main_arg4) :=
  StableHlo.after_of_forall_not_mem (b := Proc.devRef .tc main_arg4) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops_keep_arg5 : after (ops (F := F)) V (Proc.devRef .tc main_arg5) = V (Proc.devRef .tc main_arg5) :=
  StableHlo.after_of_forall_not_mem (b := Proc.devRef .tc main_arg5) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops_keep_arg6 : after (ops (F := F)) V (Proc.devRef .tc main_arg6) = V (Proc.devRef .tc main_arg6) :=
  StableHlo.after_of_forall_not_mem (b := Proc.devRef .tc main_arg6) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem ops_keep_arg7 : after (ops (F := F)) V (Proc.devRef .tc main_arg7) = V (Proc.devRef .tc main_arg7) :=
  StableHlo.after_of_forall_not_mem (b := Proc.devRef .tc main_arg7) _ _ (List.forall_iff_forall_mem.mp (by
    simp only [ops, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- Every weakly fair execution of the reference's @main terminates with the result buffer at the network of the
    argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
        = Cert.Sage.network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v63).trans (result (launchContents m c)),
      (h c main_arg0).trans (ops_keep_arg0 _),
      (h c main_arg1).trans (ops_keep_arg1 _),
      (h c main_arg2).trans (ops_keep_arg2 _),
      (h c main_arg3).trans (ops_keep_arg3 _),
      (h c main_arg4).trans (ops_keep_arg4 _),
      (h c main_arg5).trans (ops_keep_arg5 _),
      (h c main_arg6).trans (ops_keep_arg6 _),
      (h c main_arg7).trans (ops_keep_arg7 _)⟩)
    (run_seq scopedRefs_eq scopedSems_eq defs main (fun _ => ops) main_eq (fun _ => ops_sub) m ρ)

end Cert.ReferenceIdeal.Walk

end
-- ==== Proof.Layer1.lean ====
/-
  The first pallas_call. Grid point t takes rows 1000 t … 1000 t + 999 of the feature matrix and the two whole weight
  matrices and writes the same rows of the two products; the 50 row blocks tile the 50000 rows, so each output array ends
  holding the whole product of the feature matrix with its weight matrix.
-/
import proofs.«103264_j42296837931009_1_alg».proof.Proof.Gen.KernelIdeal.Frame
import proofs.«103264_j42296837931009_1_alg».proof.Proof.Sage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer1

open Cert.KernelIdeal Cert.KernelIdeal.Gen
open Idealize.ShloMosaic.ValueIdx

variable (V : (c : Dev nD) → (b : Ref sig .tc) → Buf (Elt Ideal) ((c : Thread nD τ).loc b))

/-- The zero offsets of a whole-buffer access are the constant zero. -/
theorem hz : (![0, 0] : Fin 2 → Nat) = fun _ => 0 := funext fun a => by fin_cases a <;> rfl

/-! ## The block product at an index

The body's matrix product contracts axis 1 of the row block with axis 0 of the weights: at output index (p, q) and
contraction index k the left operand is read at (p, k) and the right one at (k, q). -/

theorem lhs_blk_0 (i : S1000x64.Idx) (q : dot_S1000x1433_S1433x64_S1000x64_1_0_0_1_n_n.contr.Idx) :
    (dot_S1000x1433_S1433x64_S1000x64_1_0_0_1_n_n.lhsIdx i q 0).val = (i 0).val := by
  unfold DotDims.lhsIdx
  rw [dif_neg (show ¬(0 : Fin S1000x1433.rank) ∈ dot_S1000x1433_S1433x64_S1000x64_1_0_0_1_n_n.lhsBatch by decide), dif_pos (show (0 : Fin S1000x1433.rank) ∈ dot_S1000x1433_S1433x64_S1000x64_1_0_0_1_n_n.lhsNonContracting by decide)]
  rfl
theorem lhs_blk_1 (i : S1000x64.Idx) (q : dot_S1000x1433_S1433x64_S1000x64_1_0_0_1_n_n.contr.Idx) :
    (dot_S1000x1433_S1433x64_S1000x64_1_0_0_1_n_n.lhsIdx i q 1).val = (q ⟨0, by decide⟩).val :=
  dot_S1000x1433_S1433x64_S1000x64_1_0_0_1_n_n.lhsIdx_val_of_single rfl i q
theorem rhs_blk_0 (i : S1000x64.Idx) (q : dot_S1000x1433_S1433x64_S1000x64_1_0_0_1_n_n.contr.Idx) :
    (dot_S1000x1433_S1433x64_S1000x64_1_0_0_1_n_n.rhsIdx i q 0).val = (q ⟨0, by decide⟩).val :=
  dot_S1000x1433_S1433x64_S1000x64_1_0_0_1_n_n.rhsIdx_val_of_single rfl i q
theorem rhs_blk_1 (i : S1000x64.Idx) (q : dot_S1000x1433_S1433x64_S1000x64_1_0_0_1_n_n.contr.Idx) :
    (dot_S1000x1433_S1433x64_S1000x64_1_0_0_1_n_n.rhsIdx i q 1).val = (i 1).val := by
  unfold DotDims.rhsIdx
  rw [dif_neg (show ¬(1 : Fin S1433x64.rank) ∈ dot_S1000x1433_S1433x64_S1000x64_1_0_0_1_n_n.rhsBatch by decide), dif_pos (show (1 : Fin S1433x64.rank) ∈ dot_S1000x1433_S1433x64_S1000x64_1_0_0_1_n_n.rhsNonContracting by decide)]
  rfl

/-- The block's product into the zero accumulator, at (p, q): the sum over k of block (p, k) times weights (k, q). -/
theorem blk_prod_apply (a : FVec Ideal S1000x1433 .bf16) (b : FVec Ideal S1433x64 .bf16) (p : Fin 1000) (q : Fin 64) :
    matmul dot_S1000x1433_S1433x64_S1000x64_1_0_0_1_n_n none a b (constant (F := Ideal) S1000x64 .f32 0x00000000#32) (ix2 p q)
      = ∑ k : Fin 1433, a (ix2 p k) * b (ix2 k q) := by
  refine (Ideal.matmul_constant_zero_apply dot_S1000x1433_S1433x64_S1000x64_1_0_0_1_n_n none a b (ix2 p q)).trans ?_
  rw [← Equiv.sum_comp (contrEquiv1 dot_S1000x1433_S1433x64_S1000x64_1_0_0_1_n_n 1433 rfl rfl).symm]
  refine Finset.sum_congr rfl fun k _ => ?_
  have hk := contrEquiv1_symm_val dot_S1000x1433_S1433x64_S1000x64_1_0_0_1_n_n 1433 rfl rfl k
  have el : dot_S1000x1433_S1433x64_S1000x64_1_0_0_1_n_n.lhsIdx (ix2 p q) ((contrEquiv1 dot_S1000x1433_S1433x64_S1000x64_1_0_0_1_n_n 1433 rfl rfl).symm k) = ix2 p k := funext fun x => Fin.ext (by
    match x with
    | ⟨0, _⟩ => exact lhs_blk_0 _ _
    | ⟨1, _⟩ => exact (lhs_blk_1 _ _).trans hk)
  have er : dot_S1000x1433_S1433x64_S1000x64_1_0_0_1_n_n.rhsIdx (ix2 p q) ((contrEquiv1 dot_S1000x1433_S1433x64_S1000x64_1_0_0_1_n_n 1433 rfl rfl).symm k) = ix2 k q := funext fun x => Fin.ext (by
    match x with
    | ⟨0, _⟩ => exact (rhs_blk_0 _ _).trans hk
    | ⟨1, _⟩ => exact rhs_blk_1 _ _)
  rw [el, er]

/-! ## The whole product at an index -/

theorem lhs_arr_0 (i : Cert.ReferenceIdeal.S50000x64.Idx) (q : Cert.ReferenceIdeal.dot_S50000x1433_S1433x64_S50000x64_1_0_0_1_n_n.contr.Idx) :
    (Cert.ReferenceIdeal.dot_S50000x1433_S1433x64_S50000x64_1_0_0_1_n_n.lhsIdx i q 0).val = (i 0).val := by
  unfold DotDims.lhsIdx
  rw [dif_neg (show ¬(0 : Fin Cert.ReferenceIdeal.S50000x1433.rank) ∈ Cert.ReferenceIdeal.dot_S50000x1433_S1433x64_S50000x64_1_0_0_1_n_n.lhsBatch by decide), dif_pos (show (0 : Fin Cert.ReferenceIdeal.S50000x1433.rank) ∈ Cert.ReferenceIdeal.dot_S50000x1433_S1433x64_S50000x64_1_0_0_1_n_n.lhsNonContracting by decide)]
  rfl
theorem lhs_arr_1 (i : Cert.ReferenceIdeal.S50000x64.Idx) (q : Cert.ReferenceIdeal.dot_S50000x1433_S1433x64_S50000x64_1_0_0_1_n_n.contr.Idx) :
    (Cert.ReferenceIdeal.dot_S50000x1433_S1433x64_S50000x64_1_0_0_1_n_n.lhsIdx i q 1).val = (q ⟨0, by decide⟩).val :=
  Cert.ReferenceIdeal.dot_S50000x1433_S1433x64_S50000x64_1_0_0_1_n_n.lhsIdx_val_of_single rfl i q
theorem rhs_arr_0 (i : Cert.ReferenceIdeal.S50000x64.Idx) (q : Cert.ReferenceIdeal.dot_S50000x1433_S1433x64_S50000x64_1_0_0_1_n_n.contr.Idx) :
    (Cert.ReferenceIdeal.dot_S50000x1433_S1433x64_S50000x64_1_0_0_1_n_n.rhsIdx i q 0).val = (q ⟨0, by decide⟩).val :=
  Cert.ReferenceIdeal.dot_S50000x1433_S1433x64_S50000x64_1_0_0_1_n_n.rhsIdx_val_of_single rfl i q
theorem rhs_arr_1 (i : Cert.ReferenceIdeal.S50000x64.Idx) (q : Cert.ReferenceIdeal.dot_S50000x1433_S1433x64_S50000x64_1_0_0_1_n_n.contr.Idx) :
    (Cert.ReferenceIdeal.dot_S50000x1433_S1433x64_S50000x64_1_0_0_1_n_n.rhsIdx i q 1).val = (i 1).val := by
  unfold DotDims.rhsIdx
  rw [dif_neg (show ¬(1 : Fin Cert.ReferenceIdeal.S1433x64.rank) ∈ Cert.ReferenceIdeal.dot_S50000x1433_S1433x64_S50000x64_1_0_0_1_n_n.rhsBatch by decide), dif_pos (show (1 : Fin Cert.ReferenceIdeal.S1433x64.rank) ∈ Cert.ReferenceIdeal.dot_S50000x1433_S1433x64_S50000x64_1_0_0_1_n_n.rhsNonContracting by decide)]
  rfl

/-- The whole product at (r, q): the sum over k of features (r, k) times weights (k, q). -/
theorem arr_prod_apply (X : FVec Ideal Cert.ReferenceIdeal.S50000x1433 .f32) (W : FVec Ideal Cert.ReferenceIdeal.S1433x64 .f32)
    (r : Fin 50000) (q : Fin 64) :
    Cert.Sage.proj1 (F := Ideal) X W (ix2 r q) = ∑ k : Fin 1433, X (ix2 r k) * W (ix2 k q) := by
  show FloatOps.dotGeneral Cert.ReferenceIdeal.dot_S50000x1433_S1433x64_S50000x64_1_0_0_1_n_n none .single X W (ix2 r q) = _
  rw [Ideal.dotGeneral_apply, ← Equiv.sum_comp (contrEquiv1 Cert.ReferenceIdeal.dot_S50000x1433_S1433x64_S50000x64_1_0_0_1_n_n 1433 rfl rfl).symm]
  refine Finset.sum_congr rfl fun k _ => ?_
  have hk := contrEquiv1_symm_val Cert.ReferenceIdeal.dot_S50000x1433_S1433x64_S50000x64_1_0_0_1_n_n 1433 rfl rfl k
  have el : Cert.ReferenceIdeal.dot_S50000x1433_S1433x64_S50000x64_1_0_0_1_n_n.lhsIdx (ix2 r q) ((contrEquiv1 Cert.ReferenceIdeal.dot_S50000x1433_S1433x64_S50000x64_1_0_0_1_n_n 1433 rfl rfl).symm k) = ix2 r k := funext fun x => Fin.ext (by
    match x with
    | ⟨0, _⟩ => exact lhs_arr_0 _ _
    | ⟨1, _⟩ => exact (lhs_arr_1 _ _).trans hk)
  have er : Cert.ReferenceIdeal.dot_S50000x1433_S1433x64_S50000x64_1_0_0_1_n_n.rhsIdx (ix2 r q) ((contrEquiv1 Cert.ReferenceIdeal.dot_S50000x1433_S1433x64_S50000x64_1_0_0_1_n_n 1433 rfl rfl).symm k) = ix2 k q := funext fun x => Fin.ext (by
    match x with
    | ⟨0, _⟩ => exact (rhs_arr_0 _ _).trans hk
    | ⟨1, _⟩ => exact rhs_arr_1 _ _)
  rw [el, er]

/-! ## The two payloads at an index

Narrowing to the short format is the identity on extended reals, so each payload is the block product of what it
loaded. -/

theorem pay_msg_apply (xb : Vec Ideal S1000x1433 .f32) (wb : Vec Ideal S1433x64 .f32) (p : Fin 1000) (q : Fin 64) :
    k0_pay2 (F := Ideal) xb wb (ix2 p q) = ∑ k : Fin 1433, xb (ix2 p k) * wb (ix2 k q) := by
  unfold k0_pay2 k0_pay1
  exact blk_prod_apply _ _ p q

theorem pay_own_apply (xb : Vec Ideal S1000x1433 .f32) (wb : Vec Ideal S1433x64 .f32) (p : Fin 1000) (q : Fin 64) :
    k0_pay3 (F := Ideal) xb wb (ix2 p q) = ∑ k : Fin 1433, xb (ix2 p k) * wb (ix2 k q) := by
  unfold k0_pay3 k0_pay1
  exact blk_prod_apply _ _ p q

/-- A block whose rows are rows 1000 n … of the feature matrix, times weights that are the whole weight matrix: row p of the
    block product is row 1000 n + p of the whole product. -/
theorem rows_eq (X : FVec Ideal Cert.ReferenceIdeal.S50000x1433 .f32) (W : FVec Ideal Cert.ReferenceIdeal.S1433x64 .f32)
    (xb : Vec Ideal S1000x1433 .f32) (wb : Vec Ideal S1433x64 .f32) (n : Nat)
    (hx : ∀ (y : S1000x1433.Idx) (z : S50000x1433.Idx), (z 0).val = n * 1000 + (y 0).val → (z 1).val = (y 1).val → xb y = X z)
    (hw : ∀ y : S1433x64.Idx, wb y = W y)
    (p : Fin 1000) (q : Fin 64) (i : S50000x64.Idx) (hi0 : (i 0).val = n * 1000 + p.val) (hi1 : (i 1).val = q.val) :
    ∑ k : Fin 1433, xb (ix2 p k) * wb (ix2 k q) = Cert.Sage.proj1 (F := Ideal) X W i := by
  obtain ⟨r, s, rfl⟩ : ∃ (r : Fin 50000) (s : Fin 64), i = ix2 r s := ⟨i 0, i 1, eq_ix2 i⟩
  obtain rfl : s = q := Fin.ext hi1
  rw [arr_prod_apply]
  refine Finset.sum_congr rfl fun k _ => ?_
  rw [hx (ix2 p k) (ix2 r k) hi0 rfl, hw]

/-! ## From the row blocks to the arrays -/

/-- The windows' index maps over the 50 grid points: the feature window and the two output windows take row block t, the
    weight windows always their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature window's block at point t is rows 1000 t … 1000 t + 999 of the feature matrix. -/
theorem feat_blk (c : Dev nD) (t : Fin cfg0.N) (y : S1000x1433.Idx) (z : S50000x1433.Idx)
    (h0 : (z 0).val = t.val * 1000 + (y 0).val) (h1 : (z 1).val = (y 1).val) :
    (iblk0 V c 0 t : Vec Ideal S1000x1433 .f32) y = (V c main_arg0 : S50000x1433.Idx → Elt Ideal .f32) z := by
  obtain ⟨e0, e1, -⟩ := idx_facts t
  unfold iblk0
  rw [View.read_apply]
  show V c main_arg0 _ = V c main_arg0 z
  congr 1
  funext a
  apply Fin.ext
  match a with
  | ⟨0, _⟩ => show win0_0.index t (0 : Fin 2) * 1000 + 1 * (y 0).val = (z 0).val; rw [e0, h0]; omega
  | ⟨1, _⟩ => show win0_0.index t (1 : Fin 2) * 1433 + 1 * (y 1).val = (z 1).val; rw [e1, h1]; omega

/-- The neighbour-weight window's block at every point is the whole weight matrix. -/
theorem wmsg_blk (c : Dev nD) (t : Fin cfg0.N) (y : S1433x64.Idx) :
    (iblk0 V c 1 t : Vec Ideal S1433x64 .f32) y = (V c main_arg2 : S1433x64.Idx → Elt Ideal .f32) y := by
  obtain ⟨-, -, e0, e1, -⟩ := idx_facts t
  unfold iblk0
  rw [View.read_apply]
  show V c main_arg2 _ = V c main_arg2 y
  congr 1
  funext a
  apply Fin.ext
  match a with
  | ⟨0, _⟩ => show win0_1.index t (0 : Fin 2) * 1433 + 1 * (y 0).val = (y 0).val; rw [e0]; omega
  | ⟨1, _⟩ => show win0_1.index t (1 : Fin 2) * 64 + 1 * (y 1).val = (y 1).val; rw [e1]; omega

/-- The own-weight window's block at every point is the whole weight matrix. -/
theorem wown_blk (c : Dev nD) (t : Fin cfg0.N) (y : S1433x64.Idx) :
    (iblk0 V c 2 t : Vec Ideal S1433x64 .f32) y = (V c main_arg4 : S1433x64.Idx → Elt Ideal .f32) y := by
  obtain ⟨-, -, -, -, e0, e1, -⟩ := idx_facts t
  unfold iblk0
  rw [View.read_apply]
  show V c main_arg4 _ = V c main_arg4 y
  congr 1
  funext a
  apply Fin.ext
  match a with
  | ⟨0, _⟩ => show win0_2.index t (0 : Fin 2) * 1433 + 1 * (y 0).val = (y 0).val; rw [e0]; omega
  | ⟨1, _⟩ => show win0_2.index t (1 : Fin 2) * 64 + 1 * (y 1).val = (y 1).val; rw [e1]; omega

/-- The first payload of a block of rows 1000 n … and the whole weights, at an index, is the whole product at the same
    index of the array. -/
theorem msg_point (X : FVec Ideal Cert.ReferenceIdeal.S50000x1433 .f32) (W : FVec Ideal Cert.ReferenceIdeal.S1433x64 .f32)
    (xb : Vec Ideal S1000x1433 .f32) (wb : Vec Ideal S1433x64 .f32) (n : Nat)
    (hx : ∀ (y : S1000x1433.Idx) (z : S50000x1433.Idx), (z 0).val = n * 1000 + (y 0).val → (z 1).val = (y 1).val → xb y = X z)
    (hw : ∀ y : S1433x64.Idx, wb y = W y)
    (j : S1000x64.Idx) (i : S50000x64.Idx) (hi0 : (i 0).val = n * 1000 + (j 0).val) (hi1 : (i 1).val = (j 1).val) :
    k0_pay2 (F := Ideal) xb wb j = Cert.Sage.proj1 (F := Ideal) X W i := by
  obtain ⟨p, q, rfl⟩ : ∃ (p : Fin 1000) (q : Fin 64), j = ix2 p q := ⟨j 0, j 1, eq_ix2 j⟩
  rw [pay_msg_apply]
  exact rows_eq X W xb wb n hx hw p q i hi0 hi1

/-- The same for the second payload. -/
theorem own_point (X : FVec Ideal Cert.ReferenceIdeal.S50000x1433 .f32) (W : FVec Ideal Cert.ReferenceIdeal.S1433x64 .f32)
    (xb : Vec Ideal S1000x1433 .f32) (wb : Vec Ideal S1433x64 .f32) (n : Nat)
    (hx : ∀ (y : S1000x1433.Idx) (z : S50000x1433.Idx), (z 0).val = n * 1000 + (y 0).val → (z 1).val = (y 1).val → xb y = X z)
    (hw : ∀ y : S1433x64.Idx, wb y = W y)
    (j : S1000x64.Idx) (i : S50000x64.Idx) (hi0 : (i 0).val = n * 1000 + (j 0).val) (hi1 : (i 1).val = (j 1).val) :
    k0_pay3 (F := Ideal) xb wb j = Cert.Sage.proj1 (F := Ideal) X W i := by
  obtain ⟨p, q, rfl⟩ : ∃ (p : Fin 1000) (q : Fin 64), j = ix2 p q := ⟨j 0, j 1, eq_ix2 j⟩
  rw [pay_own_apply]
  exact rows_eq X W xb wb n hx hw p q i hi0 hi1

/-- What point t writes back to output window 3 is block t of the product with the neighbour weights. -/
theorem msg_flushed_eq (c : Dev nD) (t : Fin cfg0.N) :
    (dat0 (F := Ideal) V c).flushed 3 t
      = ((cfg0.win 3).blk t).view.read (Elt Ideal) (Cert.Sage.proj1 (F := Ideal) (V c main_arg0) (V c main_arg2)) := by
  show (cfg0.win 3).cut (grid0.coords t) ((dat0 V c).after 3 t) = _
  rw [after0_3]
  unfold out0_3
  rw [View.canon_unit_zero hz]
  simp only [View.ld_unit_zero (S := S1000x1433) hz, View.ld_unit_zero (S := S1433x64) hz]
  obtain ⟨-, -, -, -, -, -, e0, e1, -⟩ := idx_facts t
  funext j
  show k0_pay2 (F := Ideal) (iblk0 V c 0 t) (iblk0 V c 1 t) j
    = Cert.Sage.proj1 (F := Ideal) (V c main_arg0) (V c main_arg2) (((cfg0.win 3).blk t).view.emb j)
  refine msg_point _ _ _ _ t.val (feat_blk V c t) (wmsg_blk V c t) j _ ?_ ?_
  · show win0_3.index t (0 : Fin 2) * 1000 + 1 * (j 0).val = t.val * 1000 + (j 0).val
    rw [e0]; omega
  · show win0_3.index t (1 : Fin 2) * 64 + 1 * (j 1).val = (j 1).val
    rw [e1]; omega

/-- What point t writes back to output window 4 is block t of the product with the node's own weights. -/
theorem own_flushed_eq (c : Dev nD) (t : Fin cfg0.N) :
    (dat0 (F := Ideal) V c).flushed 4 t
      = ((cfg0.win 4).blk t).view.read (Elt Ideal) (Cert.Sage.proj1 (F := Ideal) (V c main_arg0) (V c main_arg4)) := by
  show (cfg0.win 4).cut (grid0.coords t) ((dat0 V c).after 4 t) = _
  rw [after0_4]
  unfold out0_4
  rw [View.canon_unit_zero hz]
  simp only [View.ld_unit_zero (S := S1000x1433) hz, View.ld_unit_zero (S := S1433x64) hz]
  obtain ⟨-, -, -, -, -, -, -, -, e0, e1⟩ := idx_facts t
  funext j
  show k0_pay3 (F := Ideal) (iblk0 V c 0 t) (iblk0 V c 2 t) j
    = Cert.Sage.proj1 (F := Ideal) (V c main_arg0) (V c main_arg4) (((cfg0.win 4).blk t).view.emb j)
  refine own_point _ _ _ _ t.val (feat_blk V c t) (wown_blk V c t) j _ ?_ ?_
  · show win0_4.index t (0 : Fin 2) * 1000 + 1 * (j 0).val = t.val * 1000 + (j 0).val
    rw [e0]; omega
  · show win0_4.index t (1 : Fin 2) * 64 + 1 * (j 1).val = (j 1).val
    rw [e1]; omega

/-- An index of the first output array is in point t's block iff each coordinate is in the block's range on its axis. -/
theorem mem_msg_blk (t : Fin cfg0.N) (i : S50000x64.Idx) :
    i ∈ ((cfg0.win 3).blk t).view.set ↔ ∀ a : Fin 2, win0_3.index t a * S1000x64.size a ≤ (i a).val ∧ (i a).val < win0_3.index t a * S1000x64.size a + S1000x64.size a := by
  show i ∈ ((View.whole main_v12_0).slice (win0_3.rect t)).set ↔ _
  rw [View.set_slice_whole, Rect.mem_set_unit]
  exact Iff.rfl

/-- The same for the second output array. -/
theorem mem_own_blk (t : Fin cfg0.N) (i : S50000x64.Idx) :
    i ∈ ((cfg0.win 4).blk t).view.set ↔ ∀ a : Fin 2, win0_4.index t a * S1000x64.size a ≤ (i a).val ∧ (i a).val < win0_4.index t a * S1000x64.size a + S1000x64.size a := by
  show i ∈ ((View.whole main_v12_1).slice (win0_4.rect t)).set ↔ _
  rw [View.set_slice_whole, Rect.mem_set_unit]
  exact Iff.rfl

/-- Row r of the first output array is in the block of point r / 1000, and every point writes back. -/
theorem msg_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 50 := N_0
  obtain ⟨t, ht⟩ : ∃ t : Fin cfg0.N, t.val = (i 0).val / 1000 :=
    ⟨⟨(i 0).val / 1000, by show (i 0).val / 1000 < grid0.N; rw [hN]; omega⟩, rfl⟩
  obtain ⟨-, -, -, -, -, -, e0, e1, -⟩ := idx_facts t
  refine ⟨t, flush0_3 t, ?_⟩
  rw [mem_msg_blk]
  intro a
  match a with
  | ⟨0, _⟩ => show win0_3.index t (0 : Fin 2) * 1000 ≤ (i 0).val ∧ (i 0).val < win0_3.index t (0 : Fin 2) * 1000 + 1000; rw [e0, ht]; omega
  | ⟨1, _⟩ => show win0_3.index t (1 : Fin 2) * 64 ≤ (i 1).val ∧ (i 1).val < win0_3.index t (1 : Fin 2) * 64 + 64; rw [e1]; omega

/-- The same for the second output array. -/
theorem own_cover (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : grid0.N = 50 := N_0
  obtain ⟨t, ht⟩ : ∃ t : Fin cfg0.N, t.val = (i 0).val / 1000 :=
    ⟨⟨(i 0).val / 1000, by show (i 0).val / 1000 < grid0.N; rw [hN]; omega⟩, rfl⟩
  obtain ⟨-, -, -, -, -, -, -, -, e0, e1⟩ := idx_facts t
  refine ⟨t, flush0_4 t, ?_⟩
  rw [mem_own_blk]
  intro a
  match a with
  | ⟨0, _⟩ => show win0_4.index t (0 : Fin 2) * 1000 ≤ (i 0).val ∧ (i 0).val < win0_4.index t (0 : Fin 2) * 1000 + 1000; rw [e0, ht]; omega
  | ⟨1, _⟩ => show win0_4.index t (1 : Fin 2) * 64 ≤ (i 1).val ∧ (i 1).val < win0_4.index t (1 : Fin 2) * 64 + 64; rw [e1]; omega

/-- Output window 3's array after the region: features × the neighbour weights. -/
theorem msg_array (c : Dev nD) :
    (dat0 (F := Ideal) V c).arrAt 3 cfg0.N = Cert.Sage.proj1 (F := Ideal) (V c main_arg0) (V c main_arg2) := by
  exact (dat0 (F := Ideal) V c).arrAt_eq_of_cover 3 _ (fun t _ => msg_flushed_eq V c t) msg_cover

/-- Output window 4's array after the region: features × the node's own weights. -/
theorem own_array (c : Dev nD) :
    (dat0 (F := Ideal) V c).arrAt 4 cfg0.N = Cert.Sage.proj1 (F := Ideal) (V c main_arg0) (V c main_arg4) := by
  exact (dat0 (F := Ideal) V c).arrAt_eq_of_cover 4 _ (fun t _ => own_flushed_eq V c t) own_cover

end Cert.KernelIdeal.Layer1

end
-- ==== Proof.Layer2.lean ====
/-
  The second pallas_call. Grid point t takes rows 1000 t … 1000 t + 999 of the neighbours' mean and of the nodes' own first
  projection, the bias row and the two whole second-layer weight matrices; it forms the hidden rows (mean + bias + own) and
  writes their two products. The 50 row blocks tile the rows, so each output array ends holding the whole product of the
  hidden matrix with its weight matrix.
-/
import proofs.«103264_j42296837931009_1_alg».proof.Proof.Gen.KernelIdeal.Frame
import proofs.«103264_j42296837931009_1_alg».proof.Proof.Sage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer2

open Cert.KernelIdeal Cert.KernelIdeal.Gen
open Idealize.ShloMosaic.ValueIdx
open scoped BigOperators

variable (V : (c : Dev nD) → (b : Ref sig .tc) → Buf (Elt Ideal) ((c : Thread nD τ).loc b))

/-! ## The block's matrix product, entry by entry -/

/-- The operand entries the block's product multiplies at output entry i and contracted column q: the left operand's
    (row of i, q) and the right operand's (q, column of i), axis by axis. -/
theorem blockLhs_row (i : S1000x32.Idx) (q : dot_S1000x64_S64x32_S1000x32_1_0_0_1_n_n.contr.Idx) :
    (dot_S1000x64_S64x32_S1000x32_1_0_0_1_n_n.lhsIdx i q 0).val = (i 0).val := by
  unfold DotDims.lhsIdx
  rw [dif_neg (show ¬(0 : Fin S1000x64.rank) ∈ dot_S1000x64_S64x32_S1000x32_1_0_0_1_n_n.lhsBatch by decide), dif_pos (show (0 : Fin S1000x64.rank) ∈ dot_S1000x64_S64x32_S1000x32_1_0_0_1_n_n.lhsNonContracting by decide)]
  rfl
theorem blockLhs_col (i : S1000x32.Idx) (q : dot_S1000x64_S64x32_S1000x32_1_0_0_1_n_n.contr.Idx) :
    (dot_S1000x64_S64x32_S1000x32_1_0_0_1_n_n.lhsIdx i q 1).val = (q ⟨0, by decide⟩).val :=
  dot_S1000x64_S64x32_S1000x32_1_0_0_1_n_n.lhsIdx_val_of_single rfl i q
theorem blockRhs_row (i : S1000x32.Idx) (q : dot_S1000x64_S64x32_S1000x32_1_0_0_1_n_n.contr.Idx) :
    (dot_S1000x64_S64x32_S1000x32_1_0_0_1_n_n.rhsIdx i q 0).val = (q ⟨0, by decide⟩).val :=
  dot_S1000x64_S64x32_S1000x32_1_0_0_1_n_n.rhsIdx_val_of_single rfl i q
theorem blockRhs_col (i : S1000x32.Idx) (q : dot_S1000x64_S64x32_S1000x32_1_0_0_1_n_n.contr.Idx) :
    (dot_S1000x64_S64x32_S1000x32_1_0_0_1_n_n.rhsIdx i q 1).val = (i 1).val := by
  unfold DotDims.rhsIdx
  rw [dif_neg (show ¬(1 : Fin S64x32.rank) ∈ dot_S1000x64_S64x32_S1000x32_1_0_0_1_n_n.rhsBatch by decide), dif_pos (show (1 : Fin S64x32.rank) ∈ dot_S1000x64_S64x32_S1000x32_1_0_0_1_n_n.rhsNonContracting by decide)]
  rfl

/-- A block's product into the zero splat, at row p and column q: the sum over the 64 contracted columns. -/
theorem blockProduct_apply (h : FVec Ideal S1000x64 .bf16) (w : FVec Ideal S64x32 .bf16) (p : Fin 1000) (q : Fin 32) :
    matmul dot_S1000x64_S64x32_S1000x32_1_0_0_1_n_n none h w (constant (F := Ideal) S1000x32 .f32 0x00000000#32) (ix2 p q)
      = ∑ k : Fin 64, h (ix2 p k) * w (ix2 k q) := by
  simp only [matmul]
  rw [Ideal.matmul_constant_zero_apply, ← Equiv.sum_comp (contrEquiv1 dot_S1000x64_S64x32_S1000x32_1_0_0_1_n_n 64 rfl rfl).symm]
  refine Finset.sum_congr rfl fun k _ => ?_
  have hk := contrEquiv1_symm_val dot_S1000x64_S64x32_S1000x32_1_0_0_1_n_n 64 rfl rfl k
  have el : dot_S1000x64_S64x32_S1000x32_1_0_0_1_n_n.lhsIdx (ix2 p q) ((contrEquiv1 dot_S1000x64_S64x32_S1000x32_1_0_0_1_n_n 64 rfl rfl).symm k) = ix2 p k := funext fun a => Fin.ext (by
    match a with
    | ⟨0, _⟩ => exact blockLhs_row _ _
    | ⟨1, _⟩ => exact (blockLhs_col _ _).trans hk)
  have er : dot_S1000x64_S64x32_S1000x32_1_0_0_1_n_n.rhsIdx (ix2 p q) ((contrEquiv1 dot_S1000x64_S64x32_S1000x32_1_0_0_1_n_n 64 rfl rfl).symm k) = ix2 k q := funext fun a => Fin.ext (by
    match a with
    | ⟨0, _⟩ => exact (blockRhs_row _ _).trans hk
    | ⟨1, _⟩ => exact blockRhs_col _ _)
  rw [el, er]

/-- The hidden rows of a block, entry by entry: mean + bias + own projection (the format change is the identity). -/
theorem hiddenBlock_apply (xa : Vec Ideal S1000x64 .f32) (xb : Vec Ideal S1x64 .f32) (xr : Vec Ideal S1000x64 .f32)
    (p : Fin 1000) (k : Fin 64) :
    k1_pay1 (F := Ideal) xa xb xr (ix2 p k) = (xa (ix2 p k) + xb (ix2 (0 : Fin 1) k)) + xr (ix2 p k) := by
  unfold k1_pay1
  simp only [shapeCast_self]
  rw [truncf_apply, addf_apply, addf_apply, broadcastTo_1b_ab_apply]

/-- The block's first product, entry by entry. -/
theorem msgBlock_apply (xa : Vec Ideal S1000x64 .f32) (xb : Vec Ideal S1x64 .f32) (xr : Vec Ideal S1000x64 .f32)
    (xw : Vec Ideal S64x32 .f32) (p : Fin 1000) (q : Fin 32) :
    k1_pay2 (F := Ideal) xa xb xr xw (ix2 p q)
      = ∑ k : Fin 64, ((xa (ix2 p k) + xb (ix2 (0 : Fin 1) k)) + xr (ix2 p k)) * xw (ix2 k q) := by
  unfold k1_pay2
  rw [blockProduct_apply]
  refine Finset.sum_congr rfl fun k _ => ?_
  rw [hiddenBlock_apply, truncf_apply]

/-- The block's second product, entry by entry. -/
theorem ownBlock_apply (xa : Vec Ideal S1000x64 .f32) (xb : Vec Ideal S1x64 .f32) (xr : Vec Ideal S1000x64 .f32)
    (xw : Vec Ideal S64x32 .f32) (p : Fin 1000) (q : Fin 32) :
    k1_pay3 (F := Ideal) xa xb xr xw (ix2 p q)
      = ∑ k : Fin 64, ((xa (ix2 p k) + xb (ix2 (0 : Fin 1) k)) + xr (ix2 p k)) * xw (ix2 k q) := by
  unfold k1_pay3
  rw [blockProduct_apply]
  refine Finset.sum_congr rfl fun k _ => ?_
  rw [hiddenBlock_apply, truncf_apply]

/-! ## The whole arrays' product, entry by entry -/

/-- The same for the whole arrays' product: the left operand's (row of i, q) and the right operand's (q, column of i). -/
theorem wholeLhs_row (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x32_S50000x32_1_0_0_1_n_n.lhsBatch by decide), dif_pos (show (0 : Fin Cert.ReferenceIdeal.S50000x64.rank) ∈ Cert.ReferenceIdeal.dot_S50000x64_S64x32_S50000x32_1_0_0_1_n_n.lhsNonContracting by decide)]
  rfl
theorem wholeLhs_col (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.lhsIdx i q 1).val = (q ⟨0, by decide⟩).val :=
  Cert.ReferenceIdeal.dot_S50000x64_S64x32_S50000x32_1_0_0_1_n_n.lhsIdx_val_of_single rfl i q
theorem wholeRhs_row (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 0).val = (q ⟨0, by decide⟩).val :=
  Cert.ReferenceIdeal.dot_S50000x64_S64x32_S50000x32_1_0_0_1_n_n.rhsIdx_val_of_single rfl i q
theorem wholeRhs_col (i : Cert.ReferenceIdeal.S50000x32.Idx) (q : Cert.ReferenceIdeal.dot_S50000x64_S64x32_S50000x32_1_0_0_1_n_n.contr.Idx) :
    (Cert.ReferenceIdeal.dot_S50000x64_S64x32_S50000x32_1_0_0_1_n_n.rhsIdx i q 1).val = (i 1).val := by
  unfold DotDims.rhsIdx
  rw [dif_neg (show ¬(1 : Fin Cert.ReferenceIdeal.S64x32.rank) ∈ Cert.ReferenceIdeal.dot_S50000x64_S64x32_S50000x32_1_0_0_1_n_n.rhsBatch by decide), dif_pos (show (1 : Fin Cert.ReferenceIdeal.S64x32.rank) ∈ Cert.ReferenceIdeal.dot_S50000x64_S64x32_S50000x32_1_0_0_1_n_n.rhsNonContracting by decide)]
  rfl

/-- The whole hidden matrix, entry by entry: mean + bias + own projection. -/
theorem hidden_apply (a : (⟨Cert.ReferenceIdeal.S50000x64, .f32⟩ : BufTy).Contents (Elt Ideal))
    (b : (⟨Cert.ReferenceIdeal.S1x64, .f32⟩ : BufTy).Contents (Elt Ideal))
    (r : (⟨Cert.ReferenceIdeal.S50000x64, .f32⟩ : BufTy).Contents (Elt Ideal)) (n : Fin 50000) (k : Fin 64) :
    Cert.Sage.hidden (F := Ideal) a b r (ix2 n k) = (a (ix2 n k) + b (ix2 (0 : Fin 1) k)) + r (ix2 n k) := by
  unfold Cert.Sage.hidden
  rw [addf_apply, addf_apply]
  rw [broadcastInDim_apply _ _ b (ix2 n k) (ix2 (0 : Fin 1) k) (fun ax => by
    match ax with
    | ⟨0, _⟩ => rfl
    | ⟨1, _⟩ => rfl)]

/-- The whole product of a matrix with the weights, entry by entry: the sum over the 64 contracted columns. -/
theorem proj2_apply (h : (⟨Cert.ReferenceIdeal.S50000x64, .f32⟩ : BufTy).Contents (Elt Ideal))
    (w : (⟨Cert.ReferenceIdeal.S64x32, .f32⟩ : BufTy).Contents (Elt Ideal)) (n : Fin 50000) (q : Fin 32) :
    Cert.Sage.proj2 (F := Ideal) h w (ix2 n q) = ∑ k : Fin 64, h (ix2 n k) * w (ix2 k q) := by
  simp only [Cert.Sage.proj2, Host.dotGeneral]
  rw [Ideal.dotGeneral_apply, ← Equiv.sum_comp (contrEquiv1 Cert.ReferenceIdeal.dot_S50000x64_S64x32_S50000x32_1_0_0_1_n_n 64 rfl rfl).symm]
  refine Finset.sum_congr rfl fun k _ => ?_
  have hk := contrEquiv1_symm_val Cert.ReferenceIdeal.dot_S50000x64_S64x32_S50000x32_1_0_0_1_n_n 64 rfl rfl k
  have el : Cert.ReferenceIdeal.dot_S50000x64_S64x32_S50000x32_1_0_0_1_n_n.lhsIdx (ix2 n q) ((contrEquiv1 Cert.ReferenceIdeal.dot_S50000x64_S64x32_S50000x32_1_0_0_1_n_n 64 rfl rfl).symm k) = ix2 n k := funext fun a => Fin.ext (by
    match a with
    | ⟨0, _⟩ => exact wholeLhs_row _ _
    | ⟨1, _⟩ => exact (wholeLhs_col _ _).trans hk)
  have er : Cert.ReferenceIdeal.dot_S50000x64_S64x32_S50000x32_1_0_0_1_n_n.rhsIdx (ix2 n q) ((contrEquiv1 Cert.ReferenceIdeal.dot_S50000x64_S64x32_S50000x32_1_0_0_1_n_n 64 rfl rfl).symm k) = ix2 k q := funext fun a => Fin.ext (by
    match a with
    | ⟨0, _⟩ => exact (wholeRhs_row _ _).trans hk
    | ⟨1, _⟩ => exact wholeRhs_col _ _)
  rw [el, er]

/-- One block entry against one whole-array entry: if row p of the block's inputs is row n of the whole inputs (and the bias
    row and the weights are the whole ones), the block's first product at (p, q) is the whole product at (n, q). -/
theorem msgBlock_eq (xa xr : Vec Ideal S1000x64 .f32) (xb : Vec Ideal S1x64 .f32) (xw : Vec Ideal S64x32 .f32)
    (a r : (⟨Cert.ReferenceIdeal.S50000x64, .f32⟩ : BufTy).Contents (Elt Ideal))
    (b : (⟨Cert.ReferenceIdeal.S1x64, .f32⟩ : BufTy).Contents (Elt Ideal))
    (w : (⟨Cert.ReferenceIdeal.S64x32, .f32⟩ : BufTy).Contents (Elt Ideal))
    (p : Fin 1000) (q : Fin 32) (n : Fin 50000)
    (ha : ∀ k : Fin 64, xa (ix2 p k) = a (ix2 n k))
    (hr : ∀ k : Fin 64, xr (ix2 p k) = r (ix2 n k))
    (hb : ∀ k : Fin 64, xb (ix2 (0 : Fin 1) k) = b (ix2 (0 : Fin 1) k))
    (hw : ∀ k : Fin 64, xw (ix2 k q) = w (ix2 k q)) :
    k1_pay2 (F := Ideal) xa xb xr xw (ix2 p q)
      = Cert.Sage.proj2 (F := Ideal) (Cert.Sage.hidden (F := Ideal) a b r) w (ix2 n q) := by
  rw [msgBlock_apply, proj2_apply]
  refine Finset.sum_congr rfl fun k _ => ?_
  rw [hidden_apply, ha, hr, hb, hw]

/-- The same for the second product. -/
theorem ownBlock_eq (xa xr : Vec Ideal S1000x64 .f32) (xb : Vec Ideal S1x64 .f32) (xw : Vec Ideal S64x32 .f32)
    (a r : (⟨Cert.ReferenceIdeal.S50000x64, .f32⟩ : BufTy).Contents (Elt Ideal))
    (b : (⟨Cert.ReferenceIdeal.S1x64, .f32⟩ : BufTy).Contents (Elt Ideal))
    (w : (⟨Cert.ReferenceIdeal.S64x32, .f32⟩ : BufTy).Contents (Elt Ideal))
    (p : Fin 1000) (q : Fin 32) (n : Fin 50000)
    (ha : ∀ k : Fin 64, xa (ix2 p k) = a (ix2 n k))
    (hr : ∀ k : Fin 64, xr (ix2 p k) = r (ix2 n k))
    (hb : ∀ k : Fin 64, xb (ix2 (0 : Fin 1) k) = b (ix2 (0 : Fin 1) k))
    (hw : ∀ k : Fin 64, xw (ix2 k q) = w (ix2 k q)) :
    k1_pay3 (F := Ideal) xa xb xr xw (ix2 p q)
      = Cert.Sage.proj2 (F := Ideal) (Cert.Sage.hidden (F := Ideal) a b r) w (ix2 n q) := by
  rw [ownBlock_apply, proj2_apply]
  refine Finset.sum_congr rfl fun k _ => ?_
  rw [hidden_apply, ha, hr, hb, hw]

/-- Two functions of a [1000, 32] index agree when they agree at every pair of coordinates. -/
theorem funext_rowcol {α : Type} {f g : S1000x32.Idx → α} (h : ∀ (p : Fin 1000) (q : Fin 32), f (ix2 p q) = g (ix2 p q)) : f = g :=
  funext fun j => by rw [eq_ix2 j]; exact h _ _

/-! ## From the 50 row blocks to the arrays -/

/-- The zero offsets, as the constant function. -/
theorem hz : (![0, 0] : Fin 2 → Nat) = fun _ => 0 := funext fun a => by fin_cases a <;> rfl

/-- The windows' block indices at each of the 50 grid points: the row-blocked windows sit at block t of the rows,
    the bias row and the weight matrices at their one block. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- There are 50 grid points. -/
theorem point_lt (t : Fin cfg1.N) : t.val < 50 := lt_of_lt_of_eq t.isLt N_1

/-- Row p of the neighbours' mean block at point t is row 1000 t + p of the whole mean. -/
theorem meanBlock_row (c : Dev nD) (t : Fin cfg1.N) (p : Fin 1000) (k : Fin 64) (n : Fin 50000) (hn : n.val = 1000 * t.val + p.val) :
    (iblk1 (F := Ideal) V c 0 t : Vec Ideal S1000x64 .f32) (ix2 p k) = V c main_v27 (ix2 n k) := by
  obtain ⟨e00, e01, -⟩ := blockIndex t
  show V c main_v27 (((cfg1.win 0).blk t).view.emb (ix2 p k)) = V c main_v27 (ix2 n k)
  congr 1
  funext a
  apply Fin.ext
  match a with
  | ⟨0, _⟩ => show win1_0.index t (0 : Fin 2) * 1000 + 1 * p.val = n.val; rw [e00, hn]; omega
  | ⟨1, _⟩ => show win1_0.index t (1 : Fin 2) * 64 + 1 * k.val = k.val; rw [e01]; omega

/-- Row p of the nodes' own projection block at point t is row 1000 t + p of the whole projection. -/
theorem ownBlock_row (c : Dev nD) (t : Fin cfg1.N) (p : Fin 1000) (k : Fin 64) (n : Fin 50000) (hn : n.val = 1000 * t.val + p.val) :
    (iblk1 (F := Ideal) V c 1 t : Vec Ideal S1000x64 .f32) (ix2 p k) = V c main_v12_1 (ix2 n k) := by
  obtain ⟨-, -, e10, e11, -⟩ := blockIndex t
  show V c main_v12_1 (((cfg1.win 1).blk t).view.emb (ix2 p k)) = V c main_v12_1 (ix2 n k)
  congr 1
  funext a
  apply Fin.ext
  match a with
  | ⟨0, _⟩ => show win1_1.index t (0 : Fin 2) * 1000 + 1 * p.val = n.val; rw [e10, hn]; omega
  | ⟨1, _⟩ => show win1_1.index t (1 : Fin 2) * 64 + 1 * k.val = k.val; rw [e11]; omega

/-- The bias window's block is the whole bias row at every point. -/
theorem biasBlock_entry (c : Dev nD) (t : Fin cfg1.N) (k : Fin 64) :
    (iblk1 (F := Ideal) V c 2 t : Vec Ideal S1x64 .f32) (ix2 (0 : Fin 1) k) = V c main_v28 (ix2 (0 : Fin 1) k) := by
  obtain ⟨-, -, -, -, e20, e21, -⟩ := blockIndex t
  show V c main_v28 (((cfg1.win 2).blk t).view.emb (ix2 (0 : Fin 1) k)) = V c main_v28 (ix2 (0 : Fin 1) k)
  congr 1
  funext a
  apply Fin.ext
  match a with
  | ⟨0, _⟩ => show win1_2.index t (0 : Fin 2) * 1 + 1 * 0 = 0; rw [e20]
  | ⟨1, _⟩ => show win1_2.index t (1 : Fin 2) * 64 + 1 * k.val = k.val; rw [e21]; omega

/-- The neighbour weights' block is the whole matrix at every point. -/
theorem msgWeights_entry (c : Dev nD) (t : Fin cfg1.N) (k : Fin 64) (q : Fin 32) :
    (iblk1 (F := Ideal) V c 3 t : Vec Ideal S64x32 .f32) (ix2 k q) = V c main_arg5 (ix2 k q) := by
  obtain ⟨-, -, -, -, -, -, e30, e31, -⟩ := blockIndex t
  show V c main_arg5 (((cfg1.win 3).blk t).view.emb (ix2 k q)) = V c main_arg5 (ix2 k q)
  congr 1
  funext a
  apply Fin.ext
  match a with
  | ⟨0, _⟩ => show win1_3.index t (0 : Fin 2) * 64 + 1 * k.val = k.val; rw [e30]; omega
  | ⟨1, _⟩ => show win1_3.index t (1 : Fin 2) * 32 + 1 * q.val = q.val; rw [e31]; omega

/-- The own weights' block is the whole matrix at every point. -/
theorem ownWeights_entry (c : Dev nD) (t : Fin cfg1.N) (k : Fin 64) (q : Fin 32) :
    (iblk1 (F := Ideal) V c 4 t : Vec Ideal S64x32 .f32) (ix2 k q) = V c main_arg7 (ix2 k q) := by
  obtain ⟨-, -, -, -, -, -, -, -, e40, e41, -⟩ := blockIndex t
  show V c main_arg7 (((cfg1.win 4).blk t).view.emb (ix2 k q)) = V c main_arg7 (ix2 k q)
  congr 1
  funext a
  apply Fin.ext
  match a with
  | ⟨0, _⟩ => show win1_4.index t (0 : Fin 2) * 64 + 1 * k.val = k.val; rw [e40]; omega
  | ⟨1, _⟩ => show win1_4.index t (1 : Fin 2) * 32 + 1 * q.val = q.val; rw [e41]; omega

/-- Hidden × the neighbour weights, over the whole arrays as the region finds them. -/
abbrev msgWhole (c : Dev nD) : Buf (Elt Ideal) ((c : Thread nD τ).loc main_v29_0) :=
  Cert.Sage.proj2 (F := Ideal) (Cert.Sage.hidden (F := Ideal) (V c main_v27) (V c main_v28) (V c main_v12_1)) (V c main_arg5)

/-- Hidden × the node's own weights, over the whole arrays as the region finds them. -/
abbrev ownWhole (c : Dev nD) : Buf (Elt Ideal) ((c : Thread nD τ).loc main_v29_1) :=
  Cert.Sage.proj2 (F := Ideal) (Cert.Sage.hidden (F := Ideal) (V c main_v27) (V c main_v28) (V c main_v12_1)) (V c main_arg7)

/-- What point t writes back to the first output is rows 1000 t … 1000 t + 999 of the whole first product. -/
theorem msgFlushed (c : Dev nD) (t : Fin cfg1.N) :
    (dat1 (F := Ideal) V c).flushed 5 t = ((cfg1.win 5).blk t).view.read (Elt Ideal) (msgWhole V c) := by
  show (cfg1.win 5).cut (grid1.coords t) ((dat1 (F := Ideal) V c).after 5 t) = _
  rw [after1_5]
  unfold out1_5
  rw [View.canon_unit_zero hz]
  simp only [View.ld_unit_zero (S := S1000x64) hz, View.ld_unit_zero (S := S1x64) hz, View.ld_unit_zero (S := S64x32) hz]
  refine funext_rowcol fun p q => ?_
  have ht := point_lt t
  obtain ⟨-, -, -, -, -, -, -, -, -, -, e50, e51, -⟩ := blockIndex t
  have hlt : 1000 * t.val + p.val < 50000 := by omega
  have hemb : ((cfg1.win 5).blk t).view.emb (ix2 p q) = ix2 (⟨1000 * t.val + p.val, hlt⟩ : Fin 50000) q := by
    funext a
    apply Fin.ext
    match a with
    | ⟨0, _⟩ => show win1_5.index t (0 : Fin 2) * 1000 + 1 * p.val = 1000 * t.val + p.val; rw [e50]; omega
    | ⟨1, _⟩ => show win1_5.index t (1 : Fin 2) * 32 + 1 * q.val = q.val; rw [e51]; omega
  show k1_pay2 (F := Ideal) (iblk1 V c 0 t) (iblk1 V c 2 t) (iblk1 V c 1 t) (iblk1 V c 3 t) (ix2 p q)
    = msgWhole V c (((cfg1.win 5).blk t).view.emb (ix2 p q))
  rw [hemb]
  exact msgBlock_eq _ _ _ _ _ _ _ _ p q _
    (fun k => meanBlock_row V c t p k _ rfl) (fun k => ownBlock_row V c t p k _ rfl)
    (fun k => biasBlock_entry V c t k) (fun k => msgWeights_entry V c t k q)

/-- An index of the first output is in point t's block iff each coordinate is in the block's range on its axis. -/
theorem msgBlock_mem (t : Fin cfg1.N) (i : S50000x32.Idx) :
    i ∈ ((cfg1.win 5).blk t).view.set ↔ ∀ a : Fin 2, win1_5.index t a * S1000x32.size a ≤ (i a).val ∧ (i a).val < win1_5.index t a * S1000x32.size a + S1000x32.size a := by
  show i ∈ ((View.whole main_v29_0).slice (win1_5.rect t)).set ↔ _
  rw [View.set_slice_whole, Rect.mem_set_unit]
  exact Iff.rfl

/-- Row r of the first output lies in the block of point r / 1000, and every point writes back. -/
theorem msgCover (i : S50000x32.Idx) :
    ∃ t : Fin cfg1.N, (cfg1.win 5).flush t = true ∧ i ∈ ((cfg1.win 5).blk t).view.set := by
  have hi0 : (i 0).val < 50000 := (i 0).isLt
  have hi1 : (i 1).val < 32 := (i 1).isLt
  have htlt : (i 0).val / 1000 < cfg1.N := by rw [show cfg1.N = 50 from N_1]; omega
  obtain ⟨-, -, -, -, -, -, -, -, -, -, e50, e51, -⟩ := blockIndex ⟨(i 0).val / 1000, htlt⟩
  have e50' : win1_5.index ⟨(i 0).val / 1000, htlt⟩ (0 : Fin 2) = (i 0).val / 1000 := e50
  refine ⟨⟨(i 0).val / 1000, htlt⟩, flush1_5 _, ?_⟩
  rw [msgBlock_mem]
  intro a
  match a with
  | ⟨0, _⟩ =>
    show win1_5.index ⟨(i 0).val / 1000, htlt⟩ (0 : Fin 2) * 1000 ≤ (i 0).val ∧ (i 0).val < win1_5.index ⟨(i 0).val / 1000, htlt⟩ (0 : Fin 2) * 1000 + 1000
    rw [e50']; omega
  | ⟨1, _⟩ =>
    show win1_5.index ⟨(i 0).val / 1000, htlt⟩ (1 : Fin 2) * 32 ≤ (i 1).val ∧ (i 1).val < win1_5.index ⟨(i 0).val / 1000, htlt⟩ (1 : Fin 2) * 32 + 32
    rw [e51]; omega

/-- Output window 5's array after the region: hidden × the neighbour weights. -/
theorem msg_array (c : Dev nD) :
    (dat1 (F := Ideal) V c).arrAt 5 cfg1.N
      = Cert.Sage.proj2 (F := Ideal) (Cert.Sage.hidden (F := Ideal) (V c main_v27) (V c main_v28) (V c main_v12_1)) (V c main_arg5) :=
  (dat1 (F := Ideal) V c).arrAt_eq_of_cover 5 (msgWhole V c) (fun t _ => msgFlushed V c t) (fun i => msgCover i)

/-- What point t writes back to the second output is rows 1000 t … 1000 t + 999 of the whole second product. -/
theorem ownFlushed (c : Dev nD) (t : Fin cfg1.N) :
    (dat1 (F := Ideal) V c).flushed 6 t = ((cfg1.win 6).blk t).view.read (Elt Ideal) (ownWhole V c) := by
  show (cfg1.win 6).cut (grid1.coords t) ((dat1 (F := Ideal) V c).after 6 t) = _
  rw [after1_6]
  unfold out1_6
  rw [View.canon_unit_zero hz]
  simp only [View.ld_unit_zero (S := S1000x64) hz, View.ld_unit_zero (S := S1x64) hz, View.ld_unit_zero (S := S64x32) hz]
  refine funext_rowcol fun p q => ?_
  have ht := point_lt t
  obtain ⟨-, -, -, -, -, -, -, -, -, -, -, -, e60, e61⟩ := blockIndex t
  have hlt : 1000 * t.val + p.val < 50000 := by omega
  have hemb : ((cfg1.win 6).blk t).view.emb (ix2 p q) = ix2 (⟨1000 * t.val + p.val, hlt⟩ : Fin 50000) q := by
    funext a
    apply Fin.ext
    match a with
    | ⟨0, _⟩ => show win1_6.index t (0 : Fin 2) * 1000 + 1 * p.val = 1000 * t.val + p.val; rw [e60]; omega
    | ⟨1, _⟩ => show win1_6.index t (1 : Fin 2) * 32 + 1 * q.val = q.val; rw [e61]; omega
  show k1_pay3 (F := Ideal) (iblk1 V c 0 t) (iblk1 V c 2 t) (iblk1 V c 1 t) (iblk1 V c 4 t) (ix2 p q)
    = ownWhole V c (((cfg1.win 6).blk t).view.emb (ix2 p q))
  rw [hemb]
  exact ownBlock_eq _ _ _ _ _ _ _ _ p q _
    (fun k => meanBlock_row V c t p k _ rfl) (fun k => ownBlock_row V c t p k _ rfl)
    (fun k => biasBlock_entry V c t k) (fun k => ownWeights_entry V c t k q)

/-- An index of the second output is in point t's block iff each coordinate is in the block's range on its axis. -/
theorem ownBlock_mem (t : Fin cfg1.N) (i : S50000x32.Idx) :
    i ∈ ((cfg1.win 6).blk t).view.set ↔ ∀ a : Fin 2, win1_6.index t a * S1000x32.size a ≤ (i a).val ∧ (i a).val < win1_6.index t a * S1000x32.size a + S1000x32.size a := by
  show i ∈ ((View.whole main_v29_1).slice (win1_6.rect t)).set ↔ _
  rw [View.set_slice_whole, Rect.mem_set_unit]
  exact Iff.rfl

/-- Row r of the second output lies in the block of point r / 1000, and every point writes back. -/
theorem ownCover (i : S50000x32.Idx) :
    ∃ t : Fin cfg1.N, (cfg1.win 6).flush t = true ∧ i ∈ ((cfg1.win 6).blk t).view.set := by
  have hi0 : (i 0).val < 50000 := (i 0).isLt
  have hi1 : (i 1).val < 32 := (i 1).isLt
  have htlt : (i 0).val / 1000 < cfg1.N := by rw [show cfg1.N = 50 from N_1]; omega
  obtain ⟨-, -, -, -, -, -, -, -, -, -, -, -, e60, e61⟩ := blockIndex ⟨(i 0).val / 1000, htlt⟩
  have e60' : win1_6.index ⟨(i 0).val / 1000, htlt⟩ (0 : Fin 2) = (i 0).val / 1000 := e60
  refine ⟨⟨(i 0).val / 1000, htlt⟩, flush1_6 _, ?_⟩
  rw [ownBlock_mem]
  intro a
  match a with
  | ⟨0, _⟩ =>
    show win1_6.index ⟨(i 0).val / 1000, htlt⟩ (0 : Fin 2) * 1000 ≤ (i 0).val ∧ (i 0).val < win1_6.index ⟨(i 0).val / 1000, htlt⟩ (0 : Fin 2) * 1000 + 1000
    rw [e60']; omega
  | ⟨1, _⟩ =>
    show win1_6.index ⟨(i 0).val / 1000, htlt⟩ (1 : Fin 2) * 32 ≤ (i 1).val ∧ (i 1).val < win1_6.index ⟨(i 0).val / 1000, htlt⟩ (1 : Fin 2) * 32 + 32
    rw [e61]; omega

/-- Output window 6's array after the region: hidden × the node's own weights. -/
theorem own_array (c : Dev nD) :
    (dat1 (F := Ideal) V c).arrAt 6 cfg1.N
      = Cert.Sage.proj2 (F := Ideal) (Cert.Sage.hidden (F := Ideal) (V c main_v27) (V c main_v28) (V c main_v12_1)) (V c main_arg7) :=
  (dat1 (F := Ideal) V c).arrAt_eq_of_cover 6 (ownWhole V c) (fun t _ => ownFlushed V c t) (fun i => ownCover i)

end Cert.KernelIdeal.Layer2

end
-- ==== Proof.Finalize.lean ====
/-
  The third pallas_call. Grid point t takes rows 1000 t … 1000 t + 999 of the second mean and of the nodes' own second
  projection and the bias row, rectifies their sum and writes the rows' log-softmax. A row's maximum and its sum of
  exponentials only read that row, so the 50 row blocks, which tile the rows, leave the whole array at the row-wise
  log-softmax of the rectified sum.
-/
import proofs.«103264_j42296837931009_1_alg».proof.Proof.Gen.KernelIdeal.Frame
import proofs.«103264_j42296837931009_1_alg».proof.Proof.Sage
import Idealize.ShloMosaic.Lib.Pipeline.Value
import Idealize.ShloMosaic.Lib.ValueIdx
import Idealize.ShloMosaic.Lib.ValueLayout
import Idealize.ShloMosaic.PureOps.Ideal.Laws
import Idealize.ShloMosaic.Lib.ReduceAll
set_option maxRecDepth 16384

noncomputable section

open Idealize.ShloMosaic Idealize.ShloMosaic.TcCoe Idealize.SL.Sem
open Idealize.ShloMosaic.Pipeline (Dat)

namespace Cert.KernelIdeal.Finalize

open Cert.KernelIdeal Cert.KernelIdeal.Gen

variable (V : (c : Dev nD) → (b : Ref sig .tc) → Buf (Elt Ideal) ((c : Thread nD τ).loc b))

section Rows

open Idealize.ShloMosaic.ValueIdx
open scoped BigOperators

/-! ## Reads at an index: a row's maximum and sum, columns and broadcasts -/

variable {m k : ℕ}

/-- Entry c of row r, found through the index a reduction along the columns inserts. -/
theorem lift_row (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a
  apply Fin.ext
  match a with
  | ⟨0, _⟩ => rfl
  | ⟨1, _⟩ => rfl

/-- The log-softmax of one row h of k entries at entry j, the maximum folded from b: the entry less the row's maximum,
    less the logarithm of the sum over the row of the exponentials of the entries less the maximum. -/
def rowLsm (b : EReal) (h : Fin k → EReal) (j : Fin k) : EReal :=
  (h j - (Finset.univ : Finset (Fin k)).fold max b h)
    - Ideal.log (∑ c : Fin k, Ideal.exp (h c - (Finset.univ : Finset (Fin k)).fold max b h))

/-- The maximum of row r, folded from the accumulator's value over the row's entries. -/
theorem rowMax_apply (hred : (⟨2, ![m, k]⟩ : Shape).Reduces [1] ⟨1, ![m]⟩) (hfmt : FKind.Formats FTy.f32)
    (w : BitVec FTy.f32.bits) (hacc : w = FKind.maximumf.neutral .f32 hfmt)
    (x : FVec Ideal ⟨2, ![m, k]⟩ .f32) (r : Fin m) :
    multiReduction .maximumf [1] ⟨1, ![m]⟩ x w hred hfmt hacc (ix1 r)
      = (Finset.univ : Finset (Fin k)).fold max (Ideal.ofBits .f32 w) (fun c => x (ix2 r c)) := by
  refine (Ideal.multiReduction_maximumf_single x w hred hfmt hacc (ix1 r)).trans ?_
  exact congrArg (fun f => (Finset.univ : Finset (Fin k)).fold max (Ideal.ofBits .f32 w) f)
    (funext fun c => congrArg x (lift_row hred r c))

/-- The sum of row r over the row's entries. -/
theorem rowSum_apply (hred : (⟨2, ![m, k]⟩ : Shape).Reduces [1] ⟨1, ![m]⟩) (hfmt : FKind.Formats FTy.f32)
    (w : BitVec FTy.f32.bits) (hacc : w = FKind.add.neutral .f32 hfmt)
    (x : FVec Ideal ⟨2, ![m, k]⟩ .f32) (r : Fin m) :
    multiReduction .add [1] ⟨1, ![m]⟩ x w hred hfmt hacc (ix1 r) = ∑ c : Fin k, x (ix2 r c) := by
  refine (Ideal.multiReduction_add_single x w hred hfmt hacc (ix1 r)).trans ?_
  exact Finset.sum_congr rfl fun c _ => congrArg x (lift_row hred r c)

/-- A vector of m entries cast to a column reads its entry r at (r, 0). -/
theorem column_read {α : Type} (hsc : (⟨1, ![m]⟩ : Shape).ShapeCasts ⟨2, ![m, 1]⟩)
    (v : (⟨1, ![m]⟩ : Shape).Idx → α) (r : Fin m) (u : Fin 1) :
    shapeCast ⟨2, ![m, 1]⟩ v hsc (ix2 r u) = v (ix1 r) := by
  refine shapeCast_apply v hsc (ix2 r u) (ix1 r) ?_
  rw [Shape.rowMajor_val_two, Shape.rowMajor_val_one]
  show r.val = r.val * 1 + u.val
  have hu := u.isLt
  omega

/-- A column spread along the rows reads, at (r, j), the column's entry r. -/
theorem spread_read {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun a => ?_
  match a with
  | ⟨0, _⟩ =>
    show r.val = if m = 1 then 0 else r.val
    split
    · have := r.isLt; omega
    · rfl
  | ⟨1, _⟩ => rfl

/-- The tiled spelling of the row-wise log-softmax, at (r, j). -/
theorem tiled_apply (hred : (⟨2, ![m, k]⟩ : Shape).Reduces [1] ⟨1, ![m]⟩) (hfmt hfmt' : FKind.Formats FTy.f32)
    (wm ws : BitVec FTy.f32.bits) (hm : wm = FKind.maximumf.neutral .f32 hfmt) (hs : ws = FKind.add.neutral .f32 hfmt')
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    subf (subf x (broadcastTo ⟨2, ![m, k]⟩ (shapeCast ⟨2, ![m, 1]⟩ (multiReduction .maximumf [1] ⟨1, ![m]⟩ x wm hred hfmt hm) hsc) hbc))
        (broadcastTo ⟨2, ![m, k]⟩
          (log (shapeCast ⟨2, ![m, 1]⟩
            (multiReduction .add [1] ⟨1, ![m]⟩
              (exp (subf x (broadcastTo ⟨2, ![m, k]⟩ (shapeCast ⟨2, ![m, 1]⟩ (multiReduction .maximumf [1] ⟨1, ![m]⟩ x wm hred hfmt hm) hsc) hbc)))
              ws hred hfmt' hs) hsc)) hbc) (ix2 r j)
      = rowLsm (Ideal.ofBits .f32 wm) (fun c => x (ix2 r c)) j := by
  have hshift : ∀ c : Fin k, subf x (broadcastTo ⟨2, ![m, k]⟩ (shapeCast ⟨2, ![m, 1]⟩ (multiReduction .maximumf [1] ⟨1, ![m]⟩ x wm hred hfmt hm) hsc) hbc) (ix2 r c)
      = x (ix2 r c) - (Finset.univ : Finset (Fin k)).fold max (Ideal.ofBits .f32 wm) (fun c => x (ix2 r c)) := by
    intro c
    rw [subf_apply, spread_read, column_read, rowMax_apply]
  rw [subf_apply, hshift, spread_read]
  show _ - Ideal.log (shapeCast ⟨2, ![m, 1]⟩ _ hsc (ix2 r (0 : Fin 1))) = _
  rw [column_read, rowSum_apply]
  unfold rowLsm
  refine congrArg (fun z => _ - Ideal.log z) (Finset.sum_congr rfl fun c _ => ?_)
  show Ideal.exp (subf x _ (ix2 r c)) = _
  rw [hshift]

variable {M : ℕ}

/-- A scalar broadcast over any shape reads the scalar. -/
theorem scalar_read {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of M entries made a column by a broadcast reads its entry n at (n, 0). -/
theorem columnOf_read {α : Type} (h : (⟨1, ![M]⟩ : Shape).BroadcastsInDim ⟨2, ![M, 1]⟩ ![0])
    (v : (⟨1, ![M]⟩ : Shape).Idx → α) (n : Fin M) (u : Fin 1) :
    broadcastInDim ⟨2, ![M, 1]⟩ ![0] h v (ix2 n u) = v (ix1 n) := by
  refine broadcastInDim_apply ![0] h v (ix2 n u) (ix1 n) fun a => ?_
  match a with
  | ⟨0, _⟩ =>
    show n.val = if M = 1 then 0 else n.val
    split
    · have := n.isLt; omega
    · rfl

/-- A column broadcast along the rows reads, at (n, j), the column's entry n. -/
theorem across_read {α : Type} (h : (⟨2, ![M, 1]⟩ : Shape).BroadcastsInDim ⟨2, ![M, k]⟩ ![0, 1])
    (v : (⟨2, ![M, 1]⟩ : Shape).Idx → α) (n : Fin M) (j : Fin k) :
    broadcastInDim ⟨2, ![M, k]⟩ ![0, 1] h v (ix2 n j) = v (ix2 n (0 : Fin 1)) := by
  refine broadcastInDim_apply ![0, 1] h v (ix2 n j) (ix2 n (0 : Fin 1)) fun a => ?_
  match a with
  | ⟨0, _⟩ =>
    show n.val = if M = 1 then 0 else n.val
    split
    · have := n.isLt; omega
    · rfl
  | ⟨1, _⟩ => rfl

/-- One row broadcast down M rows reads, at (n, j), the row's entry j. -/
theorem down_read {α : Type} (h : (⟨2, ![1, k]⟩ : Shape).BroadcastsInDim ⟨2, ![M, k]⟩ ![0, 1])
    (v : (⟨2, ![1, k]⟩ : Shape).Idx → α) (n : Fin M) (j : Fin k) :
    broadcastInDim ⟨2, ![M, k]⟩ ![0, 1] h v (ix2 n j) = v (ix2 (0 : Fin 1) j) := by
  refine broadcastInDim_apply ![0, 1] h v (ix2 n j) (ix2 (0 : Fin 1) j) fun a => ?_
  match a with
  | ⟨0, _⟩ => rfl
  | ⟨1, _⟩ =>
    show j.val = if k = 1 then 0 else j.val
    split
    · have := j.isLt; omega
    · rfl

/-- The host's logarithm, entry by entry. -/
theorem hostLog_read {s : Shape} (x : FVec Ideal s .f32) (i : s.Idx) : Host.log x i = Ideal.log (x i) := rfl
/-- The host's exponential, entry by entry. -/
theorem hostExp_read {s : Shape} (x : FVec Ideal s .f32) (i : s.Idx) : Host.exp x i = Ideal.exp (x i) := rfl

/-- The host's maximum of a row from the scalar b, at row n. -/
theorem hostRowMax_apply (hrt : (⟨2, ![M, k]⟩ : Shape).ReducesTo [1] ⟨1, ![M]⟩)
    (hred : (⟨2, ![M, k]⟩ : Shape).Reduces [1] ⟨1, ![M]⟩) (hu : 0 < (⟨0, ![]⟩ : Shape).numel)
    (w : BitVec 32) (X : FVec Ideal ⟨2, ![M, k]⟩ .f32) (n : Fin M) :
    Host.reduce FloatOps.maximumf X (constant (F := Ideal) ⟨0, ![]⟩ .f32 w) hrt hu (ix1 n)
      = (Finset.univ : Finset (Fin k)).fold max (Ideal.ofBits .f32 w) (fun c => X (ix2 n c)) := by
  refine (Host.reduce_eq_fold_single FloatOps.maximumf X _ hrt hred hu (ix1 n)).trans ?_
  exact congrArg (fun f => (Finset.univ : Finset (Fin k)).fold max (Ideal.ofBits .f32 w) f)
    (funext fun c => congrArg X (lift_row hred n c))

/-- The host's sum of a row from the zero scalar, at row n. -/
theorem hostRowSum_apply (hrt : (⟨2, ![M, k]⟩ : Shape).ReducesTo [1] ⟨1, ![M]⟩)
    (hred : (⟨2, ![M, k]⟩ : Shape).Reduces [1] ⟨1, ![M]⟩) (hu : 0 < (⟨0, ![]⟩ : Shape).numel)
    (X : FVec Ideal ⟨2, ![M, k]⟩ .f32) (n : Fin M) :
    Host.reduceAdd X (constant (F := Ideal) ⟨0, ![]⟩ .f32 0x00000000#32) hrt hu (ix1 n) = ∑ c : Fin k, X (ix2 n c) := by
  show Ideal.hostReduceAdd hrt X (Ideal.ofBits .f32 0x00000000#32) (ix1 n) = _
  rw [Ideal.hostReduceAdd_single hrt hred, Ideal.ofBits_zero_f32, zero_add]
  exact Finset.sum_congr rfl fun c _ => congrArg X (lift_row hred n c)

/-- The whole-array spelling of the row-wise log-softmax, at (n, j). -/
theorem whole_apply (hrt : (⟨2, ![M, k]⟩ : Shape).ReducesTo [1] ⟨1, ![M]⟩)
    (hred : (⟨2, ![M, k]⟩ : Shape).Reduces [1] ⟨1, ![M]⟩) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, k]⟩ ![0, 1])
    (wm : BitVec 32) (X : FVec Ideal ⟨2, ![M, k]⟩ .f32) (n : Fin M) (j : Fin k) :
    subf (subf X (broadcastInDim ⟨2, ![M, k]⟩ ![0, 1] h01 (broadcastInDim ⟨2, ![M, 1]⟩ ![0] h0
          (maximumf (broadcastInDim ⟨1, ![M]⟩ ![] hS (constant (F := Ideal) ⟨0, ![]⟩ .f32 wm))
            (Host.reduce FloatOps.maximumf X (constant (F := Ideal) ⟨0, ![]⟩ .f32 wm) hrt hu)))))
        (broadcastInDim ⟨2, ![M, k]⟩ ![0, 1] h01 (Host.log (broadcastInDim ⟨2, ![M, 1]⟩ ![0] h0
          (Host.reduceAdd (Host.exp (subf X (broadcastInDim ⟨2, ![M, k]⟩ ![0, 1] h01 (broadcastInDim ⟨2, ![M, 1]⟩ ![0] h0
            (maximumf (broadcastInDim ⟨1, ![M]⟩ ![] hS (constant (F := Ideal) ⟨0, ![]⟩ .f32 wm))
              (Host.reduce FloatOps.maximumf X (constant (F := Ideal) ⟨0, ![]⟩ .f32 wm) hrt hu))))))
            (constant (F := Ideal) ⟨0, ![]⟩ .f32 0x00000000#32) hrt hu)))) (ix2 n j)
      = rowLsm (Ideal.ofBits .f32 wm) (fun c => X (ix2 n c)) j := by
  have hshift : ∀ c : Fin k, subf X (broadcastInDim ⟨2, ![M, k]⟩ ![0, 1] h01 (broadcastInDim ⟨2, ![M, 1]⟩ ![0] h0
          (maximumf (broadcastInDim ⟨1, ![M]⟩ ![] hS (constant (F := Ideal) ⟨0, ![]⟩ .f32 wm))
            (Host.reduce FloatOps.maximumf X (constant (F := Ideal) ⟨0, ![]⟩ .f32 wm) hrt hu)))) (ix2 n c)
      = X (ix2 n c) - (Finset.univ : Finset (Fin k)).fold max (Ideal.ofBits .f32 wm) (fun c => X (ix2 n c)) := by
    intro c
    rw [subf_apply, across_read, columnOf_read, maximumf_apply, scalar_read, hostRowMax_apply hrt hred]
    rw [max_eq_right ((Finset.le_fold_max _).mpr (Or.inl le_rfl))]
  rw [subf_apply, hshift, across_read]
  rw [hostLog_read, columnOf_read, hostRowSum_apply hrt hred]
  unfold rowLsm
  refine congrArg (fun z => _ - Ideal.log z) (Finset.sum_congr rfl fun c _ => ?_)
  rw [hostExp_read, hshift]

/-! ## The kernel's stored value and the whole-array function, at an index -/

/-- The kernel's stored value at (r, j): the log-softmax of row r of the rectified sum of the two blocks and the bias row. -/
theorem payload_apply (x0 x1 : Vec Ideal S1000x32 .f32) (x2 : Vec Ideal S1x32 .f32) (r : Fin 1000) (j : Fin 32) :
    k2_pay1 (F := Ideal) x0 x2 x1 (ix2 r j)
      = rowLsm (Ideal.ofBits .f32 0xFF800000#32)
          (fun c => max ((x0 (ix2 r c) + x2 (ix2 (0 : Fin 1) c)) + x1 (ix2 r c)) (Ideal.ofBits .f32 0x00000000#32)) j := by
  unfold k2_pay1
  simp only [shapeCast_self]
  refine (tiled_apply _ _ _ _ _ _ _ _ _ _ r j).trans ?_
  refine congrArg (fun h => rowLsm _ h j) (funext fun c => ?_)
  rw [maximumf_apply, addf_apply, addf_apply, broadcastTo_1b_ab_apply]
  rfl

/-- The whole-array function at (n, j): the log-softmax of row n of the rectified sum of the two arrays and the bias row. -/
theorem whole_logSoftmax_apply (A XR : FVec Ideal S50000x32 .f32) (B : FVec Ideal S1x32 .f32) (n : Fin 50000) (j : Fin 32) :
    Cert.Sage.logSoftmax (F := Ideal) (Cert.Sage.rect (F := Ideal) A B XR) (ix2 n j)
      = rowLsm (Ideal.ofBits .f32 0xFF800000#32)
          (fun c => max ((A (ix2 n c) + B (ix2 (0 : Fin 1) c)) + XR (ix2 n c)) (Ideal.ofBits .f32 0x00000000#32)) j := by
  unfold Cert.Sage.logSoftmax Cert.Sage.shifted
  refine (whole_apply _ (by decide) _ _ _ _ _ _ n j).trans ?_
  refine congrArg (fun h => rowLsm _ h j) (funext fun c => ?_)
  unfold Cert.Sage.rect
  rw [maximumf_apply, addf_apply, addf_apply, down_read, scalar_read]

/-- The stored value of blocks whose row r is row n of the whole arrays is the whole-array function's row n. -/
theorem point_eq (x0 x1 : Vec Ideal S1000x32 .f32) (x2 : Vec Ideal S1x32 .f32) (A XR : FVec Ideal S50000x32 .f32)
    (B : FVec Ideal S1x32 .f32) (r : Fin 1000) (n : Fin 50000)
    (h0 : ∀ c : Fin 32, x0 (ix2 r c) = A (ix2 n c)) (h1 : ∀ c : Fin 32, x1 (ix2 r c) = XR (ix2 n c))
    (h2 : ∀ c : Fin 32, x2 (ix2 (0 : Fin 1) c) = B (ix2 (0 : Fin 1) c)) (j : Fin 32) :
    k2_pay1 (F := Ideal) x0 x2 x1 (ix2 r j)
      = Cert.Sage.logSoftmax (F := Ideal) (Cert.Sage.rect (F := Ideal) A B XR) (ix2 n j) := by
  rw [payload_apply, whole_logSoftmax_apply]
  refine congrArg (fun h => rowLsm _ h j) (funext fun c => ?_)
  rw [h0, h1, h2]

/-! ## From the blocks to the array -/

/-- The zero offsets of a whole-buffer access. -/
theorem hz : (![0, 0] : Fin 2 → Nat) = fun _ => 0 := funext fun a => by fin_cases a <;> rfl

/-- The index maps, decided over the 50 grid points: the three row-blocked windows sit at block row t, block column 0;
    the bias row's window at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row r of the second mean's block at point t is row 1000 t + r of the array. -/
theorem mean_block (c : Dev nD) (t : Fin cfg2.N) (r : Fin 1000) (j : Fin 32) (n : Fin 50000)
    (hn : n.val = t.val * 1000 + r.val) :
    (iblk2 (F := Ideal) V c 0 t : Vec Ideal S1000x32 .f32) (ix2 r j) = (V c main_v44 : FVec Ideal S50000x32 .f32) (ix2 n j) := by
  obtain ⟨e0, e1, -⟩ := idx_facts t
  show V c main_v44 (((cfg2.win 0).blk t).view.emb (ix2 r j)) = V c main_v44 (ix2 n j)
  refine congrArg _ (funext fun a => Fin.ext ?_)
  match a with
  | ⟨0, _⟩ => show win2_0.index t (0 : Fin 2) * 1000 + 1 * r.val = n.val; omega
  | ⟨1, _⟩ => show win2_0.index t (1 : Fin 2) * 32 + 1 * j.val = j.val; omega

/-- Row r of the own projection's block at point t is row 1000 t + r of the array. -/
theorem own_block (c : Dev nD) (t : Fin cfg2.N) (r : Fin 1000) (j : Fin 32) (n : Fin 50000)
    (hn : n.val = t.val * 1000 + r.val) :
    (iblk2 (F := Ideal) V c 1 t : Vec Ideal S1000x32 .f32) (ix2 r j) = (V c main_v29_1 : FVec Ideal S50000x32 .f32) (ix2 n j) := by
  obtain ⟨-, -, e0, e1, -⟩ := idx_facts t
  show V c main_v29_1 (((cfg2.win 1).blk t).view.emb (ix2 r j)) = V c main_v29_1 (ix2 n j)
  refine congrArg _ (funext fun a => Fin.ext ?_)
  match a with
  | ⟨0, _⟩ => show win2_1.index t (0 : Fin 2) * 1000 + 1 * r.val = n.val; omega
  | ⟨1, _⟩ => show win2_1.index t (1 : Fin 2) * 32 + 1 * j.val = j.val; omega

/-- The bias row's block at every point is the bias row. -/
theorem bias_block (c : Dev nD) (t : Fin cfg2.N) (j : Fin 32) :
    (iblk2 (F := Ideal) V c 2 t : Vec Ideal S1x32 .f32) (ix2 (0 : Fin 1) j) = (V c main_v45 : FVec Ideal S1x32 .f32) (ix2 (0 : Fin 1) j) := by
  obtain ⟨-, -, -, -, e0, e1, -⟩ := idx_facts t
  show V c main_v45 (((cfg2.win 2).blk t).view.emb (ix2 (0 : Fin 1) j)) = V c main_v45 (ix2 (0 : Fin 1) j)
  refine congrArg _ (funext fun a => Fin.ext ?_)
  match a with
  | ⟨0, _⟩ => show win2_2.index t (0 : Fin 2) * 1 + 1 * 0 = 0; omega
  | ⟨1, _⟩ => show win2_2.index t (1 : Fin 2) * 32 + 1 * j.val = j.val; omega

/-- What point t writes back is block t of the row-wise log-softmax of the rectified sum of the whole arrays. -/
theorem flushed_eq (c : Dev nD) (t : Fin cfg2.N) :
    (dat2 (F := Ideal) V c).flushed 3 t = ((cfg2.win 3).blk t).view.read (Elt Ideal)
      (Cert.Sage.logSoftmax (F := Ideal) (Cert.Sage.rect (F := Ideal) (V c main_v44) (V c main_v45) (V c main_v29_1))) := by
  show (cfg2.win 3).cut (grid2.coords t) ((dat2 (F := Ideal) V c).after 3 t) = _
  rw [after2_3]
  unfold out2_3
  rw [View.canon_unit_zero hz]
  simp only [View.ld_unit_zero (S := S1000x32) hz, View.ld_unit_zero (S := S1x32) hz]
  obtain ⟨-, -, -, -, -, -, e6, e7⟩ := idx_facts t
  have hN : cfg2.N = 50 := rfl
  refine funext fun (y : S1000x32.Idx) => ?_
  obtain ⟨r, j, rfl⟩ : ∃ (r : Fin 1000) (j : Fin 32), y = ix2 r j := ⟨y 0, y 1, eq_ix2 y⟩
  have hlt : t.val * 1000 + r.val < 50000 := by have h1 := t.isLt; have h2 := r.isLt; omega
  refine (point_eq (iblk2 (F := Ideal) V c 0 t) (iblk2 (F := Ideal) V c 1 t) (iblk2 (F := Ideal) V c 2 t)
    (V c main_v44) (V c main_v29_1) (V c main_v45) r ⟨t.val * 1000 + r.val, hlt⟩
    (fun c' => mean_block V c t r c' _ rfl) (fun c' => own_block V c t r c' _ rfl) (fun c' => bias_block V c t c') j).trans ?_
  show _ = Cert.Sage.logSoftmax (F := Ideal) (Cert.Sage.rect (F := Ideal) (V c main_v44) (V c main_v45) (V c main_v29_1))
    (((cfg2.win 3).blk t).view.emb (ix2 r j))
  refine congrArg _ (funext fun a => Fin.ext ?_)
  match a with
  | ⟨0, _⟩ => show t.val * 1000 + r.val = win2_3.index t (0 : Fin 2) * 1000 + 1 * r.val; omega
  | ⟨1, _⟩ => show j.val = win2_3.index t (1 : Fin 2) * 32 + 1 * j.val; omega

/-- An index of the array is in point t's block iff each coordinate is in the block's range on its axis. -/
theorem mem_blk (t : Fin cfg2.N) (i : S50000x32.Idx) :
    i ∈ ((cfg2.win 3).blk t).view.set ↔ ∀ a : Fin 2, win2_3.index t a * S1000x32.size a ≤ (i a).val
      ∧ (i a).val < win2_3.index t a * S1000x32.size a + S1000x32.size a := by
  show i ∈ ((View.whole main_v46).slice (win2_3.rect t)).set ↔ _
  rw [View.set_slice_whole, Rect.mem_set_unit]
  exact Iff.rfl

/-- Row n of the array is in the block of point n / 1000, and every point writes its block back. -/
theorem cover (i : S50000x32.Idx) :
    ∃ t : Fin cfg2.N, (cfg2.win 3).flush t = true ∧ i ∈ ((cfg2.win 3).blk t).view.set := by
  have hN : cfg2.N = 50 := rfl
  have hi0 : (i 0).val < 50000 := (i 0).isLt
  have hi1 : (i 1).val < 32 := (i 1).isLt
  have ht : (i 0).val / 1000 < cfg2.N := by rw [hN]; omega
  obtain ⟨-, -, -, -, -, -, e6, e7⟩ := idx_facts ⟨(i 0).val / 1000, ht⟩
  refine ⟨⟨(i 0).val / 1000, ht⟩, flush2_3 _, ?_⟩
  rw [mem_blk]
  intro a
  match a with
  | ⟨0, _⟩ =>
    show win2_3.index ⟨(i 0).val / 1000, ht⟩ (0 : Fin 2) * 1000 ≤ (i 0).val
      ∧ (i 0).val < win2_3.index ⟨(i 0).val / 1000, ht⟩ (0 : Fin 2) * 1000 + 1000
    rw [e6]
    show (i 0).val / 1000 * 1000 ≤ (i 0).val ∧ (i 0).val < (i 0).val / 1000 * 1000 + 1000
    omega
  | ⟨1, _⟩ =>
    show win2_3.index ⟨(i 0).val / 1000, ht⟩ (1 : Fin 2) * 32 ≤ (i 1).val
      ∧ (i 1).val < win2_3.index ⟨(i 0).val / 1000, ht⟩ (1 : Fin 2) * 32 + 32
    rw [e7]
    omega

end Rows

/-- Output window 3's array after the region: the row-wise log-softmax of the rectified second layer. -/
theorem out_array (c : Dev nD) :
    (dat2 (F := Ideal) V c).arrAt 3 cfg2.N
      = Cert.Sage.logSoftmax (F := Ideal) (Cert.Sage.rect (F := Ideal) (V c main_v44) (V c main_v45) (V c main_v29_1)) :=
  (dat2 (F := Ideal) V c).arrAt_eq_of_cover 3 _ (fun t _ => flushed_eq V c t) cover

end Cert.KernelIdeal.Finalize

end
-- ==== Proof.lean ====
/-
  The certificate of a two-layer neighbour-mean network (project, average over in-neighbours, add bias and the node's own
  projection; twice; then a rectifier and a row-wise log-softmax) computed by three pallas_calls among host stretches,
  against the same network written with host operations only.

  Both programs gather, scatter-add and divide with the same host operations, and at the exact instance a change of
  float format is the identity, a matrix-unit product into a zero accumulator is the host's dot_general, and a lane
  reduction is the host's reduce; so both result arrays are ONE function of the eight argument arrays (`Cert.Sage.network`).
  The kernel's side: each pallas_call's output arrays as whole-array functions of its input arrays (Layer1, Layer2,
  Finalize), the host stretches between them read off the frame's boundary contents (KHost), chained (KValue), over
  the launch with the result array named (KernelRun). The reference's side: its operations run in five pieces (RefOps,
  RefValue). No algebraic law is needed beyond reading each operation at an index, and finiteness of the inputs is not used.
-/
import proofs.«103264_j42296837931009_1_alg».proof.Defs
import proofs.«103264_j42296837931009_1_alg».proof.Proof.Gen.Kernel
import proofs.«103264_j42296837931009_1_alg».proof.Proof.Gen.Kernel.Skeleton
import proofs.«103264_j42296837931009_1_alg».proof.Proof.Gen.Kernel.Launch
import proofs.«103264_j42296837931009_1_alg».proof.Proof.Gen.Kernel.Points
import proofs.«103264_j42296837931009_1_alg».proof.Proof.Gen.Kernel.Frame
import proofs.«103264_j42296837931009_1_alg».proof.Proof.Gen.KernelIdeal
import proofs.«103264_j42296837931009_1_alg».proof.Proof.Gen.KernelIdeal.Skeleton
import proofs.«103264_j42296837931009_1_alg».proof.Proof.Gen.KernelIdeal.Launch
import proofs.«103264_j42296837931009_1_alg».proof.Proof.Gen.KernelIdeal.Points
import proofs.«103264_j42296837931009_1_alg».proof.Proof.Gen.KernelIdeal.Frame
import proofs.«103264_j42296837931009_1_alg».proof.Proof.Gen.ReferenceIdeal
import proofs.«103264_j42296837931009_1_alg».proof.Proof.Gen.Pre_finite_inputs
import proofs.«103264_j42296837931009_1_alg».proof.Proof.KernelRun
import proofs.«103264_j42296837931009_1_alg».proof.Proof.KValue
import proofs.«103264_j42296837931009_1_alg».proof.Proof.RefValue
import proofs.«103264_j42296837931009_1_alg».proof.Proof.Layer1
import proofs.«103264_j42296837931009_1_alg».proof.Proof.Layer2
import proofs.«103264_j42296837931009_1_alg».proof.Proof.Finalize
import Idealize.ShloMosaic.Adequacy
import Idealize.ShloMosaic.Init

noncomputable section

namespace Cert.Proof

open Idealize.ShloMosaic Idealize.SL.Sem

/-- What the three pallas_calls leave in their output arrays. -/
theorem calls : Cert.KernelIdeal.Host.Calls :=
  ⟨Cert.KernelIdeal.Layer1.msg_array, Cert.KernelIdeal.Layer1.own_array, Cert.KernelIdeal.Layer2.msg_array, Cert.KernelIdeal.Layer2.own_array, Cert.KernelIdeal.Finalize.out_array⟩

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Walk.run (F := Ideal) m ρ)

/-- Both programs end with the network of the (agreeing) argument arrays in their result arrays. -/
theorem algebraic : Cert.algebraic_KernelIdeal_ReferenceIdeal := by
  intro m ρ m' ρ' _ hagree
  refine ⟨fun c => Cert.Sage.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Host.result_eq m ρ calls c), (h c).2⟩)
      (Cert.KernelIdeal.GenP.run_result (F := Ideal) m ρ)
  · refine (θ_run Cert.ReferenceIdeal.defs _ _).mono (fun _ h c => ⟨(h c).1.trans ?_, (h c).2⟩) (Cert.ReferenceIdeal.Walk.run (F := Ideal) m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
